-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg3 : IVec S640000 32) (main_v28 : IVec S_ 1) (main_v33 : IVec S640000 1) : IVec S_ 1 :=
  let main_c_12 : IVec S_ 1 := constantI S_ 1 1#1
  let main_v34 : IVec S_ 1 := (fun x v => Host.reduce IntOp.andi x v reducesTo_S640000_S_d0 h_S_) main_v33 main_c_12
  let main_v35 : IVec S_ 1 := andi main_v28 main_v34
  let main_c_13 : IVec S_ 32 := constantI S_ 32 0#32
  let main_v36 : IVec S640000 32 := broadcastInDim S640000 ![] bcast_S_S640000 main_c_13
  let main_v37 : IVec S640000 1 := cmpi .sge main_arg3 main_v36
  let main_c_14 : IVec S_ 32 := constantI S_ 32 10000#32
  let main_v38 : IVec S640000 32 := broadcastInDim S640000 ![] bcast_S_S640000 main_c_14
  let main_v39 : IVec S640000 1 := cmpi .slt main_arg3 main_v38
  let main_v40 : IVec S640000 1 := andi main_v37 main_v39
  let main_c_15 : IVec S_ 1 := constantI S_ 1 1#1
  let main_v41 : IVec S_ 1 := (fun x v => Host.reduce IntOp.andi x v reducesTo_S640000_S_d0 h_S_) main_v40 main_c_15
  let main_v42 : IVec S_ 1 := andi main_v35 main_v41
  main_v42

def fn_part1 {F : FTy → Type} [FloatOps F] (main_arg2 : IVec S640000 32) (main_arg3 : IVec S640000 32) (main_arg6 : FVec F S128x128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_c_10 : IVec S_ 32 := constantI S_ 32 0#32
  let main_v29 : IVec S640000 32 := broadcastInDim S640000 ![] bcast_S_S640000 main_c_10
  let main_v30 : IVec S640000 1 := cmpi .sge main_arg2 main_v29
  let main_c_11 : IVec S_ 32 := constantI S_ 32 10000#32
  let main_v31 : IVec S640000 32 := broadcastInDim S640000 ![] bcast_S_S640000 main_c_11
  let main_v32 : IVec S640000 1 := cmpi .slt main_arg2 main_v31
  let main_v33 : IVec S640000 1 := andi main_v30 main_v32
  fn_part2 (F := F) main_arg3 main_v28 main_v33

def fn {F : FTy → Type} [FloatOps F] (main_arg0 : FVec F S10000x128 .f32) (main_arg1 : FVec F S640000x128 .f32) (main_arg2 : IVec S640000 32) (main_arg3 : IVec S640000 32) (main_arg4 : FVec F S128x128 .f32) (main_arg5 : FVec F S128x128 .f32) (main_arg6 : FVec F S128x128 .f32) (main_arg7 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg6 main_arg7 main_v13 main_v16
-- ==== Kernel.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S2000x128 : Shape := ⟨2, ![2000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x8 : Shape := ⟨2, ![640000, 8]⟩
abbrev S4000x128 : Shape := ⟨2, ![4000, 128]⟩
abbrev S4000x8 : Shape := ⟨2, ![4000, 8]⟩
abbrev S4000x16 : Shape := ⟨2, ![4000, 16]⟩
abbrev S4000 : Shape := ⟨1, ![4000]⟩
abbrev S4000x1 : Shape := ⟨2, ![4000, 1]⟩
abbrev S640000x8x16 : Shape := ⟨3, ![640000, 8, 16]⟩
abbrev S640000x8x1 : Shape := ⟨3, ![640000, 8, 1]⟩
abbrev S10000x8x16 : Shape := ⟨3, ![10000, 8, 16]⟩
abbrev S10000x8x1 : Shape := ⟨3, ![10000, 8, 1]⟩

abbrev nBuf : Space → Nat
  | .hbm => 99
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S1, .i32⟩
  | .hbm, ⟨20, _⟩ => ⟨S_, .i32⟩
  | .hbm, ⟨21, _⟩ => ⟨S640000x1, .i32⟩
  | .hbm, ⟨22, _⟩ => ⟨S640000x1, .i1⟩
  | .hbm, ⟨23, _⟩ => ⟨S1x1, .i32⟩
  | .hbm, ⟨24, _⟩ => ⟨S640000x1, .i32⟩
  | .hbm, ⟨25, _⟩ => ⟨S640000x1, .i1⟩
  | .hbm, ⟨26, _⟩ => ⟨S640000x1, .i1⟩
  | .hbm, ⟨27, _⟩ => ⟨S_, .i1⟩
  | .hbm, ⟨28, _⟩ => ⟨S640000, .i1⟩
  | .hbm, ⟨29, _⟩ => ⟨S640000x128, .f32⟩
  | .hbm, ⟨30, _⟩ => ⟨S640000x128, .i1⟩
  | .hbm, ⟨31, _⟩ => ⟨S_, .f32⟩
  | .hbm, ⟨32, _⟩ => ⟨S640000x128, .f32⟩
  | .hbm, ⟨33, _⟩ => ⟨S640000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S1, .i32⟩
  | .hbm, ⟨43, _⟩ => ⟨S_, .i32⟩
  | .hbm, ⟨44, _⟩ => ⟨S640000x1, .i32⟩
  | .hbm, ⟨45, _⟩ => ⟨S640000x1, .i1⟩
  | .hbm, ⟨46, _⟩ => ⟨S1x1, .i32⟩
  | .hbm, ⟨47, _⟩ => ⟨S640000x1, .i32⟩
  | .hbm, ⟨48, _⟩ => ⟨S640000x1, .i1⟩
  | .hbm, ⟨49, _⟩ => ⟨S640000x1, .i1⟩
  | .hbm, ⟨50, _⟩ => ⟨S_, .i1⟩
  | .hbm, ⟨51, _⟩ => ⟨S640000, .i1⟩
  | .hbm, ⟨52, _⟩ => ⟨S640000x128, .f32⟩
  | .hbm, ⟨53, _⟩ => ⟨S640000x128, .i1⟩
  | .hbm, ⟨54, _⟩ => ⟨S_, .f32⟩
  | .hbm, ⟨55, _⟩ => ⟨S640000x128, .f32⟩
  | .hbm, ⟨56, _⟩ => ⟨S640000x128, .f32⟩
  | .hbm, ⟨57, _⟩ => ⟨S_, .i32⟩
  | .hbm, ⟨58, _⟩ => ⟨S640000, .i32⟩
  | .hbm, ⟨59, _⟩ => ⟨S640000, .i1⟩
  | .hbm, ⟨60, _⟩ => ⟨S_, .i32⟩
  | .hbm, ⟨61, _⟩ => ⟨S640000, .i32⟩
  | .hbm, ⟨62, _⟩ => ⟨S640000, .i32⟩
  | .hbm, ⟨63, _⟩ => ⟨S640000, .i32⟩
  | .hbm, ⟨64, _⟩ => ⟨S640000x1, .i32⟩
  | .hbm, ⟨65, _⟩ => ⟨S1, .i32⟩
  | .hbm, ⟨66, _⟩ => ⟨S_, .i32⟩
  | .hbm, ⟨67, _⟩ => ⟨S640000x1, .i32⟩
  | .hbm, ⟨68, _⟩ => ⟨S640000x1, .i1⟩
  | .hbm, ⟨69, _⟩ => ⟨S1x1, .i32⟩
  | .hbm, ⟨70, _⟩ => ⟨S640000x1, .i32⟩
  | .hbm, ⟨71, _⟩ => ⟨S640000x1, .i1⟩
  | .hbm, ⟨72, _⟩ => ⟨S640000x1, .i1⟩
  | .hbm, ⟨73, _⟩ => ⟨S_, .i1⟩
  | .hbm, ⟨74, _⟩ => ⟨S640000, .i1⟩
  | .hbm, ⟨75, _⟩ => ⟨S640000x128, .f32⟩
  | .hbm, ⟨76, _⟩ => ⟨S640000x128, .i1⟩
  | .hbm, ⟨77, _⟩ => ⟨S_, .f32⟩
  | .hbm, ⟨78, _⟩ => ⟨S640000x128, .f32⟩
  | .hbm, ⟨79, _⟩ => ⟨S640000x128, .f32⟩
  | .hbm, ⟨80, _⟩ => ⟨S640000x128, .f32⟩
  | .hbm, ⟨81, _⟩ => ⟨S640000x128, .f32⟩
  | .hbm, ⟨82, _⟩ => ⟨S640000x8, .f32⟩
  | .hbm, ⟨83, _⟩ => ⟨S640000x8x16, .f32⟩
  | .hbm, ⟨84, _⟩ => ⟨S640000x8x16, .f32⟩
  | .hbm, ⟨85, _⟩ => ⟨S640000x8x1, .f32⟩
  | .hbm, ⟨86, _⟩ => ⟨S_, .f32⟩
  | .hbm, ⟨87, _⟩ => ⟨S10000x8x16, .f32⟩
  | .hbm, ⟨88, _⟩ => ⟨S640000x1, .i32⟩
  | .hbm, ⟨89, _⟩ => ⟨S10000x8x16, .f32⟩
  | .hbm, ⟨90, _⟩ => ⟨S_, .f32⟩
  | .hbm, ⟨91, _⟩ => ⟨S10000x8x1, .f32⟩
  | .hbm, ⟨92, _⟩ => ⟨S640000x1, .i32⟩
  | .hbm, ⟨93, _⟩ => ⟨S10000x8x1, .f32⟩
  | .hbm, ⟨94, _⟩ => ⟨S_, .f32⟩
  | .hbm, ⟨95, _⟩ => ⟨S10000x8x1, .f32⟩
  | .hbm, ⟨96, _⟩ => ⟨S10000x8x1, .f32⟩
  | .hbm, ⟨97, _⟩ => ⟨S10000x8x16, .f32⟩
  | .hbm, ⟨98, _⟩ => ⟨S10000x8x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S128x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x8, .f32⟩
  | .local _ .vmem, ⟨25, _⟩ => ⟨S4000x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v2 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v3 : Ref sig .tc := ⟨.hbm, 79, rfl⟩
abbrev main_v4_0 : Ref sig .tc := ⟨.hbm, 80, rfl⟩
abbrev main_v4_1 : Ref sig .tc := ⟨.hbm, 81, rfl⟩
abbrev main_v4_2 : Ref sig .tc := ⟨.hbm, 82, rfl⟩
abbrev main_v5 : Ref sig .tc := ⟨.hbm, 83, rfl⟩
abbrev main_v6 : Ref sig .tc := ⟨.hbm, 84, rfl⟩
abbrev main_v7 : Ref sig .tc := ⟨.hbm, 85, rfl⟩
abbrev main_cst : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩
abbrev main_cst_0 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_cst_1 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x128_o0_0_S4000x16 : S4000x128.Slices ![0, 0] S4000x16
  reduces_S4000x16_S4000 : S4000x16.Reduces [1] S4000
  shapeCasts_S4000_S4000x1 : S4000.ShapeCasts S4000x1
  broadcasts_S4000x1_S4000x16 : S4000x1.Broadcasts S4000x16
  inb_S4000x128_S4000x16_0_0 : ∀ a, (![0, 0] : Fin 2 → Nat) a + S4000x16.size a ≤ S4000x128.size a
  h_S4000x16 : 0 < S4000x16.numel
  inb_S4000x8_S4000x1_0_0 : ∀ a, (![0, 0] : Fin 2 → Nat) a + S4000x1.size a ≤ S4000x8.size a
  h_S4000x1 : 0 < S4000x1.numel
  slices_S4000x128_o0_16_S4000x16 : S4000x128.Slices ![0, 16] S4000x16
  inb_S4000x128_S4000x16_0_16 : ∀ a, (![0, 16] : Fin 2 → Nat) a + S4000x16.size a ≤ S4000x128.size a
  inb_S4000x8_S4000x1_0_1 : ∀ a, (![0, 1] : Fin 2 → Nat) a + S4000x1.size a ≤ S4000x8.size a
  slices_S4000x128_o0_32_S4000x16 : S4000x128.Slices ![0, 32] S4000x16
  inb_S4000x128_S4000x16_0_32 : ∀ a, (![0, 32] : Fin 2 → Nat) a + S4000x16.size a ≤ S4000x128.size a
  inb_S4000x8_S4000x1_0_2 : ∀ a, (![0, 2] : Fin 2 → Nat) a + S4000x1.size a ≤ S4000x8.size a
  slices_S4000x128_o0_48_S4000x16 : S4000x128.Slices ![0, 48] S4000x16
  inb_S4000x128_S4000x16_0_48 : ∀ a, (![0, 48] : Fin 2 → Nat) a + S4000x16.size a ≤ S4000x128.size a
  inb_S4000x8_S4000x1_0_3 : ∀ a, (![0, 3] : Fin 2 → Nat) a + S4000x1.size a ≤ S4000x8.size a
  slices_S4000x128_o0_64_S4000x16 : S4000x128.Slices ![0, 64] S4000x16
  inb_S4000x128_S4000x16_0_64 : ∀ a, (![0, 64] : Fin 2 → Nat) a + S4000x16.size a ≤ S4000x128.size a
  inb_S4000x8_S4000x1_0_4 : ∀ a, (![0, 4] : Fin 2 → Nat) a + S4000x1.size a ≤ S4000x8.size a
  slices_S4000x128_o0_80_S4000x16 : S4000x128.Slices ![0, 80] S4000x16
  inb_S4000x128_S4000x16_0_80 : ∀ a, (![0, 80] : Fin 2 → Nat) a + S4000x16.size a ≤ S4000x128.size a
  inb_S4000x8_S4000x1_0_5 : ∀ a, (![0, 5] : Fin 2 → Nat) a + S4000x1.size a ≤ S4000x8.size a
  slices_S4000x128_o0_96_S4000x16 : S4000x128.Slices ![0, 96] S4000x16
  inb_S4000x128_S4000x16_0_96 : ∀ a, (![0, 96] : Fin 2 → Nat) a + S4000x16.size a ≤ S4000x128.size a
  inb_S4000x8_S4000x1_0_6 : ∀ a, (![0, 6] : Fin 2 → Nat) a + S4000x1.size a ≤ S4000x8.size a
  slices_S4000x128_o0_112_S4000x16 : S4000x128.Slices ![0, 112] S4000x16
  inb_S4000x128_S4000x16_0_112 : ∀ a, (![0, 112] : Fin 2 → Nat) a + S4000x16.size a ≤ S4000x128.size a
  inb_S4000x8_S4000x1_0_7 : ∀ a, (![0, 7] : Fin 2 → Nat) a + S4000x1.size a ≤ S4000x8.size a
  shapeCasts_S640000x128_S640000x8x16 : S640000x128.ShapeCasts S640000x8x16
  shapeCasts_S640000x8_S640000x8x1 : S640000x8.ShapeCasts S640000x8x1
  bcast_S_S10000x8x16 : S_.BroadcastsInDim S10000x8x16 (![] : Fin 0 → Fin S10000x8x16.rank)
  bcast_S_S10000x8x1 : S_.BroadcastsInDim S10000x8x1 (![] : Fin 0 → Fin S10000x8x1.rank)
  bcast_S10000x8x1_S10000x8x16_0_1_2 : S10000x8x1.BroadcastsInDim S10000x8x16 (![0, 1, 2] : Fin 3 → Fin S10000x8x16.rank)
  dot_S2000x128_S128x128_S2000x128_1_0_0_1_n_n_wf : DotDims.WF S2000x128 S128x128 S2000x128 [1] [0] [0] [1] [] []
  gather_S10000x128_S640000x1_S640000x128_1_0_n_n_0_1_1128_wf : GatherDims.WF S10000x128 S640000x1 S640000x128 [1] [0] [] [0] [] 1 ![1, 128]
  dot_S4000x128_S128x128_S4000x128_1_0_0_1_n_n_wf : DotDims.WF S4000x128 S128x128 S4000x128 [1] [0] [0] [1] [] []
  scatter_S10000x8x16_S640000x1_S640000x8x16_12_0_0_1_wf : ScatterDims.WF S10000x8x16 S640000x1 S640000x8x16 [1, 2] [0] [0] 1
  scatter_S10000x8x1_S640000x1_S640000x8x1_12_0_0_1_wf : ScatterDims.WF S10000x8x1 S640000x1 S640000x8x1 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S10000x128.size a
  hwx0_6 : ∀ i : grid0.Coords, EltTy.bits .f32 = 32 ∨ (Rect.block (s := S10000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S640000x128.size a
  hwx1_1 : ∀ i : grid1.Coords, EltTy.bits .f32 = 32 ∨ (Rect.block (s := S640000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S640000x128.size a
  hwx1_2 : ∀ i : grid1.Coords, EltTy.bits .f32 = 32 ∨ (Rect.block (s := S640000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S640000x128.size a
  hwx1_3 : ∀ i : grid1.Coords, EltTy.bits .f32 = 32 ∨ (Rect.block (s := S640000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S640000x128.size a
  hwx1_5 : ∀ i : grid1.Coords, EltTy.bits .f32 = 32 ∨ (Rect.block (s := S640000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S640000x128.size a
  hwx1_6 : ∀ i : grid1.Coords, EltTy.bits .f32 = 32 ∨ (Rect.block (s := S640000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x8.size a ≤ S640000x8.size a
  hwx1_7 : ∀ i : grid1.Coords, EltTy.bits .f32 = 32 ∨ (Rect.block (s := S640000x8) S4000x8.size (cc1_transform_7 i) (hinb1_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S10000x8x16_S640000x1_S640000x8x16_12_0_0_1 : ScatterDims S10000x8x16 S640000x1 S640000x8x16 where
  updateWindowDims := [1, 2]
  insertedWindowDims := [0]
  scatterDimsToOperandDims := [0]
  indexVectorDim := 1
  wf := scatter_S10000x8x16_S640000x1_S640000x8x16_12_0_0_1_wf
def scatter_S10000x8x1_S640000x1_S640000x8x1_12_0_0_1 : ScatterDims S10000x8x1 S640000x1 S640000x8x1 where
  updateWindowDims := [1, 2]
  insertedWindowDims := [0]
  scatterDimsToOperandDims := [0]
  indexVectorDim := 1
  wf := scatter_S10000x8x1_S640000x1_S640000x8x1_12_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_1) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4_2) S4000x8.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S10000x8x16 : Shape := ⟨3, ![10000, 8, 16]⟩
abbrev S640000x8x16 : Shape := ⟨3, ![640000, 8, 16]⟩
abbrev S_ : Shape := ⟨0, ![]⟩
abbrev S640000x1 : Shape := ⟨2, ![640000, 1]⟩
abbrev S640000x8 : Shape := ⟨2, ![640000, 8]⟩
abbrev S640000x8x1 : Shape := ⟨3, ![640000, 8, 1]⟩
abbrev S10000x8x1 : Shape := ⟨3, ![10000, 8, 1]⟩

abbrev nBuf : Space → Nat
  | .hbm => 83
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S10000x128, .f32⟩
  | .hbm, ⟨9, _⟩ => ⟨S10000x8x16, .f32⟩
  | .hbm, ⟨10, _⟩ => ⟨S10000x128, .f32⟩
  | .hbm, ⟨11, _⟩ => ⟨S10000x8x16, .f32⟩
  | .hbm, ⟨12, _⟩ => ⟨S10000x128, .f32⟩
  | .hbm, ⟨13, _⟩ => ⟨S10000x8x16, .f32⟩
  | .hbm, ⟨14, _⟩ => ⟨S640000x128, .f32⟩
  | .hbm, ⟨15, _⟩ => ⟨S640000x8x16, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x8x16, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x8x16, .f32⟩
  | .hbm, ⟨34, _⟩ => ⟨S640000x8x16, .f32⟩
  | .hbm, ⟨35, _⟩ => ⟨S_, .f32⟩
  | .hbm, ⟨36, _⟩ => ⟨S640000x8x16, .f32⟩
  | .hbm, ⟨37, _⟩ => ⟨S640000x8x16, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S640000x8x16, .f32⟩
  | .hbm, ⟨42, _⟩ => ⟨S640000x8x16, .f32⟩
  | .hbm, ⟨43, _⟩ => ⟨S_, .f32⟩
  | .hbm, ⟨44, _⟩ => ⟨S640000x8x16, .f32⟩
  | .hbm, ⟨45, _⟩ => ⟨S640000x8x16, .f32⟩
  | .hbm, ⟨46, _⟩ => ⟨S640000x8x16, .f32⟩
  | .hbm, ⟨47, _⟩ => ⟨S_, .f32⟩
  | .hbm, ⟨48, _⟩ => ⟨S640000x8, .f32⟩
  | .hbm, ⟨49, _⟩ => ⟨S640000x8x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S640000x8x1, .f32⟩
  | .hbm, ⟨54, _⟩ => ⟨S640000x8x1, .f32⟩
  | .hbm, ⟨55, _⟩ => ⟨S_, .f32⟩
  | .hbm, ⟨56, _⟩ => ⟨S640000x8x1, .f32⟩
  | .hbm, ⟨57, _⟩ => ⟨S640000x8x1, .f32⟩
  | .hbm, ⟨58, _⟩ => ⟨S640000x8x1, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x8x16, .f32⟩
  | .hbm, ⟨68, _⟩ => ⟨S640000x8x16, .f32⟩
  | .hbm, ⟨69, _⟩ => ⟨S640000x8x16, .f32⟩
  | .hbm, ⟨70, _⟩ => ⟨S_, .f32⟩
  | .hbm, ⟨71, _⟩ => ⟨S10000x8x16, .f32⟩
  | .hbm, ⟨72, _⟩ => ⟨S640000x1, .i32⟩
  | .hbm, ⟨73, _⟩ => ⟨S10000x8x16, .f32⟩
  | .hbm, ⟨74, _⟩ => ⟨S_, .f32⟩
  | .hbm, ⟨75, _⟩ => ⟨S10000x8x1, .f32⟩
  | .hbm, ⟨76, _⟩ => ⟨S640000x1, .i32⟩
  | .hbm, ⟨77, _⟩ => ⟨S10000x8x1, .f32⟩
  | .hbm, ⟨78, _⟩ => ⟨S_, .f32⟩
  | .hbm, ⟨79, _⟩ => ⟨S10000x8x1, .f32⟩
  | .hbm, ⟨80, _⟩ => ⟨S10000x8x1, .f32⟩
  | .hbm, ⟨81, _⟩ => ⟨S10000x8x16, .f32⟩
  | .hbm, ⟨82, _⟩ => ⟨S10000x8x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_v31 : Ref sig .tc := ⟨.hbm, 60, rfl⟩
abbrev main_v32 : Ref sig .tc := ⟨.hbm, 61, rfl⟩
abbrev main_c_9 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩

abbrev nD : Nat := 1
abbrev τ : Topo := Topo.v7x

variable {F : FTy → Type} [FloatOps F]

class Facts₀ : Prop where
  shapeCasts_S10000x128_S10000x8x16 : S10000x128.ShapeCasts S10000x8x16
  shapeCasts_S640000x128_S640000x8x16 : S640000x128.ShapeCasts S640000x8x16
  bcast_S_S640000 : S_.BroadcastsInDim S640000 (![] : Fin 0 → Fin S640000.rank)
  bcast_S640000_S640000x1_0 : S640000.BroadcastsInDim S640000x1 (![0] : Fin 1 → Fin S640000x1.rank)
  bcast_S_S640000x8x16 : S_.BroadcastsInDim S640000x8x16 (![] : Fin 0 → Fin S640000x8x16.rank)
  reducesTo_S640000x8x16_S640000x8_d2 : S640000x8x16.ReducesTo [2] S640000x8
  h_S_ : 0 < S_.numel
  bcast_S640000x8_S640000x8x1_0_1 : S640000x8.BroadcastsInDim S640000x8x1 (![0, 1] : Fin 2 → Fin S640000x8x1.rank)
  bcast_S_S640000x8x1 : S_.BroadcastsInDim S640000x8x1 (![] : Fin 0 → Fin S640000x8x1.rank)
  bcast_S640000x8x1_S640000x8x16_0_1_2 : S640000x8x1.BroadcastsInDim S640000x8x16 (![0, 1, 2] : Fin 3 → Fin S640000x8x16.rank)
  bcast_S_S10000x8x16 : S_.BroadcastsInDim S10000x8x16 (![] : Fin 0 → Fin S10000x8x16.rank)
  bcast_S_S10000x8x1 : S_.BroadcastsInDim S10000x8x1 (![] : Fin 0 → Fin S10000x8x1.rank)
  bcast_S10000x8x1_S10000x8x16_0_1_2 : S10000x8x1.BroadcastsInDim S10000x8x16 (![0, 1, 2] : Fin 3 → Fin S10000x8x16.rank)
  dot_S10000x128_S128x128_S10000x128_1_0_0_1_n_n_wf : DotDims.WF S10000x128 S128x128 S10000x128 [1] [0] [0] [1] [] []
  dot_S640000x128_S128x128_S640000x128_1_0_0_1_n_n_wf : DotDims.WF S640000x128 S128x128 S640000x128 [1] [0] [0] [1] [] []
  gather_S10000x8x16_S640000x1_S640000x8x16_12_0_n_n_0_1_1816_wf : GatherDims.WF S10000x8x16 S640000x1 S640000x8x16 [1, 2] [0] [] [0] [] 1 ![1, 8, 16]
  scatter_S10000x8x16_S640000x1_S640000x8x16_12_0_0_1_wf : ScatterDims.WF S10000x8x16 S640000x1 S640000x8x16 [1, 2] [0] [0] 1
  scatter_S10000x8x1_S640000x1_S640000x8x1_12_0_0_1_wf : ScatterDims.WF S10000x8x1 S640000x1 S640000x8x1 [1, 2] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S10000x8x16_S640000x1_S640000x8x16_12_0_n_n_0_1_1816 : GatherDims S10000x8x16 S640000x1 S640000x8x16 where
  offsetDims := [1, 2]
  collapsedSliceDims := [0]
  operandBatchingDims := []
  startIndicesBatchingDims := []
  startIndexMap := [0]
  indexVectorDim := 1
  sliceSizes := ![1, 8, 16]
  wf := gather_S10000x8x16_S640000x1_S640000x8x16_12_0_n_n_0_1_1816_wf
def scatter_S10000x8x16_S640000x1_S640000x8x16_12_0_0_1 : ScatterDims S10000x8x16 S640000x1 S640000x8x16 where
  updateWindowDims := [1, 2]
  insertedWindowDims := [0]
  scatterDimsToOperandDims := [0]
  indexVectorDim := 1
  wf := scatter_S10000x8x16_S640000x1_S640000x8x16_12_0_0_1_wf
def scatter_S10000x8x1_S640000x1_S640000x8x1_12_0_0_1 : ScatterDims S10000x8x1 S640000x1 S640000x8x1 where
  updateWindowDims := [1, 2]
  insertedWindowDims := [0]
  scatterDimsToOperandDims := [0]
  indexVectorDim := 1
  wf := scatter_S10000x8x1_S640000x1_S640000x8x1_12_0_0_1_wf

class Facts : Prop extends Facts₀ where

variable [Facts]
-- ==== Proof.Spec.lean ====
/-
  Edge attention over a graph, as functions of the argument arrays on the extended reals.

  Nodes carry features x : [10000, 128]; edges carry features ef : [640000, 128] and two node numbers, a source and
  a destination. Three node projections Q = x WQ, K = x WK, V = x WV and one edge projection P = ef We are plain
  matrix products. With Ks, Vs the rows of K, V at the edges' sources and Qd the rows of Q at their destinations,
  the score at edge e and column c is
      clamp (Ks[e, c] * Qd[e, c] * 1/4) * P[e, c],   clamp y = min 5 (max (-5) y).
  The 128 columns are 8 heads of 16 lanes, column (h, d) = 16 h + d. A head's weight at an edge is
      exp (clamp (sum over the head's 16 lanes of the score)),
  and the weighted value at (e, c) is Vs[e, c] times the weight of c's head. Node numbers are read signed and
  clamped into the table's rows, as a gather reads its start indices.

  Everything that works row by row is stated for any number of rows R, so that the same function describes a block
  of rows and the whole array.
-/
import Idealize.ShloMosaic.PureOps.Ideal
import Idealize.ShloMosaic.Lib.ValueIdx

noncomputable section

open scoped BigOperators

namespace Cert.EdgeAttn

open Idealize.ShloMosaic Idealize.ShloMosaic.ValueIdx

abbrev SNode : Shape := ⟨2, ![10000, 128]⟩
abbrev SEdge : Shape := ⟨2, ![640000, 128]⟩
abbrev SW : Shape := ⟨2, ![128, 128]⟩
abbrev SNum : Shape := ⟨1, ![640000]⟩
abbrev SEdge3 : Shape := ⟨3, ![640000, 8, 16]⟩
abbrev SHead : Shape := ⟨2, ![640000, 8]⟩
abbrev SHead3 : Shape := ⟨3, ![640000, 8, 1]⟩

/-- A node number read signed and clamped into the 10000 rows of a node table. -/
def nodeRow (w : BitVec 32) : Fin 10000 := ⟨min w.toInt.toNat 9999, by omega⟩

/-- Column (h, d) of the 128: head h, lane d. -/
def col (h : Fin 8) (d : Fin 16) : Fin 128 := ⟨16 * h.val + d.val, by omega⟩

/-- The head a column belongs to. -/
def headOf (c : Fin 128) : Fin 8 := ⟨c.val / 16, by omega⟩

/-- The lane of a column inside its head. -/
def laneOf (c : Fin 128) : Fin 16 := ⟨c.val % 16, by omega⟩

theorem headOf_col (h : Fin 8) (d : Fin 16) : headOf (col h d) = h := by
  apply Fin.ext; show (16 * h.val + d.val) / 16 = h.val; omega

theorem laneOf_col (h : Fin 8) (d : Fin 16) : laneOf (col h d) = d := by
  apply Fin.ext; show (16 * h.val + d.val) % 16 = d.val; omega

theorem col_headOf_laneOf (c : Fin 128) : col (headOf c) (laneOf c) = c := by
  apply Fin.ext; show 16 * (c.val / 16) + c.val % 16 = c.val; omega

/-- The matrix product x W at row r, column c. -/
def proj {R : Nat} (x : (⟨2, ![R, 128]⟩ : Shape).Idx → EReal) (W : SW.Idx → EReal) (r : Fin R) (c : Fin 128) : EReal :=
  ∑ k : Fin 128, x (ix2 r k) * W (ix2 k c)

/-- The matrix product as an array. -/
def projArr {R : Nat} (x : (⟨2, ![R, 128]⟩ : Shape).Idx → EReal) (W : SW.Idx → EReal) : (⟨2, ![R, 128]⟩ : Shape).Idx → EReal :=
  fun i => proj x W (i 0) (i 1)

/-- The rows of a node table at the edges' node numbers. -/
def gatherRows (T : SNode.Idx → EReal) (num : IVec SNum 32) : SEdge.Idx → EReal :=
  fun i => T (ix2 (nodeRow (num (ix1 (i 0)))) (i 1))

/-- Clamping to [-5, 5], the lower bound applied first. -/
def clamp5 (y : EReal) : EReal :=
  min (Ideal.ofBits .f32 0x40A00000#32) (max (Ideal.ofBits .f32 0xC0A00000#32) y)

section Rows
variable {R : Nat} (ef Ks Qd Vs : (⟨2, ![R, 128]⟩ : Shape).Idx → EReal) (We : SW.Idx → EReal)

/-- The score of row (edge) r at column c. -/
def scoreOf (r : Fin R) (c : Fin 128) : EReal :=
  clamp5 (Ks (ix2 r c) * Qd (ix2 r c) * Ideal.ofBits .f32 0x3E800000#32) * proj ef We r c

/-- The weight of head h at row (edge) r. -/
def headWeightOf (r : Fin R) (h : Fin 8) : EReal :=
  Ideal.exp (clamp5 (∑ d : Fin 16, scoreOf ef Ks Qd We r (col h d)))

/-- The value at (r, c) weighted by the head of column c. -/
def weightedOf (r : Fin R) (c : Fin 128) : EReal :=
  Vs (ix2 r c) * headWeightOf ef Ks Qd We r (headOf c)

end Rows

section Whole
variable (x : SNode.Idx → EReal) (ef : SEdge.Idx → EReal) (src dst : IVec SNum 32) (WQ WK WV We : SW.Idx → EReal)

/-- K's rows at the sources. -/
abbrev keyRows : SEdge.Idx → EReal := gatherRows (projArr x WK) src
/-- Q's rows at the destinations. -/
abbrev queryRows : SEdge.Idx → EReal := gatherRows (projArr x WQ) dst
/-- V's rows at the sources. -/
abbrev valueRows : SEdge.Idx → EReal := gatherRows (projArr x WV) src

/-- The scores as an [edges, heads, lanes] array. -/
def scoreArr : SEdge3.Idx → EReal :=
  fun i => scoreOf ef (keyRows x src WK) (queryRows x dst WQ) We (i 0) (col (i 1) (i 2))

/-- The weighted values as an [edges, heads, lanes] array. -/
def weightedArr : SEdge3.Idx → EReal :=
  fun i => weightedOf ef (keyRows x src WK) (queryRows x dst WQ) (valueRows x src WV) We (i 0) (col (i 1) (i 2))

/-- The head weights as an [edges, heads, 1] array. -/
def headWeightArr : SHead3.Idx → EReal :=
  fun i => headWeightOf ef (keyRows x src WK) (queryRows x dst WQ) We (i 0) (i 1)

end Whole

end Cert.EdgeAttn

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.HostTakeDefs.lean ====
/-
  The three row gathers between the two regions. Each stretch of host operations computes, from a node table T and
  a node-number array, the rows of T at those numbers, with a validity mask that replaces a row whose number is
  outside the table by a fill word. When every number is a row of the table the mask is all ones and the stretch
  leaves exactly the rows of T at the numbers.
-/
import proofs.«411189_j26482768347806_1_alg».proof.Proof.Gen.KernelIdeal.Frame
import proofs.«411189_j26482768347806_1_alg».proof.Proof.Spec
import proofs.«411189_j26482768347806_1_alg».proof.Proof.LibGatherRows
import Idealize.ShloMosaic.Lib.StableHlo.Run
import Idealize.ShloMosaic.Lib.ValueIdx
import Idealize.ShloMosaic.Lib.Pipeline.Value

set_option maxRecDepth 16384

noncomputable section

namespace Cert.KernelIdeal.HostValue

open Cert.KernelIdeal Cert.KernelIdeal.Gen Cert.EdgeAttn
open Idealize.ShloMosaic Idealize.ShloMosaic.TcCoe Idealize.SL.Sem Idealize.ShloMosaic.ValueIdx Idealize.ShloMosaic.StableHlo

variable {F : FTy → Type} [FloatOps F]

/-- A cast along an equation of a type with itself does nothing. -/
theorem cast_self {α : Sort _} (h : α = α) (a : α) : cast h a = a := by
  have e : h = Eq.refl α := Subsingleton.elim _ _
  subst e
  exact (cast_eq _ a)

/-- The node numbers with negative ones shifted by the table's length, as a column of start indices. -/
def startCol (num : IVec S640000 32) : IVec S640000x1 32 :=
  broadcastInDim (s := S640000) S640000x1 ![0] bcast_S640000_S640000x1_0
    (select (cmpi .slt num (broadcastInDim (s := S_) S640000 ![] bcast_S_S640000 (constantI S_ 32 0#32)))
      (addi num (broadcastInDim (s := S_) S640000 ![] bcast_S_S640000 (constantI S_ 32 10000#32))) num)

/-- The validity mask: 1 where the start index lies in [0, 9999]. -/
def validRow (num : IVec S640000 32) : IVec S640000 1 :=
  Host.reduce IntOp.andi
    (andi (cmpi .sge (startCol num) (broadcastInDim (s := S_) S640000x1 ![] bcast_S_S640000x1 (constantI S_ 32 0#32)))
      (cmpi .sle (startCol num) (broadcastInDim (s := S1x1) S640000x1 ![0, 1] bcast_S1x1_S640000x1_0_1
        (broadcastInDim (s := S1) S1x1 ![1] bcast_S1_S1x1_1 (constantI S1 32 9999#32)))))
    (constantI S_ 1 1#1) reducesTo_S640000x1_S640000_d1 h_S_

/-- The rows of T at the node numbers, a row outside the table replaced by the fill word. -/
def takeRows (T : FVec F S10000x128 .f32) (num : IVec S640000 32) : FVec F S640000x128 .f32 :=
  select (α := F .f32) (s := S640000x128)
    (broadcastInDim (s := S640000) (α := BitVec 1) S640000x128 ![0] bcast_S640000_S640000x128_0 (validRow num))
    (Host.gather (s := S10000x128) (si := S640000x1) (t := S640000x128) (α := F .f32)
      gather_S10000x128_S640000x1_S640000x128_1_0_n_n_0_1_1128 T (startCol num))
    (broadcastInDim (s := S_) (α := F .f32) S640000x128 ![] bcast_S_S640000x128 (constant (F := F) S_ .f32 0x7FC00000#32))

end Cert.KernelIdeal.HostValue

end
-- ==== Proof.HostTakeKeys.lean ====
/-
  One of the three stretches of host operations between the regions: it leaves, in its result buffer, the rows of its
  table at its node numbers (with the validity mask's fill), whatever the buffers held before it.
-/
import proofs.«411189_j26482768347806_1_alg».proof.Proof.HostTakeDefs

set_option maxRecDepth 16384

noncomputable section

namespace Cert.KernelIdeal.HostValue

open Cert.KernelIdeal Cert.KernelIdeal.Gen Cert.EdgeAttn
open Idealize.ShloMosaic Idealize.ShloMosaic.TcCoe Idealize.SL.Sem Idealize.ShloMosaic.ValueIdx Idealize.ShloMosaic.StableHlo

variable {F : FTy → Type} [FloatOps F]

/-- The first stretch: the rows of the second projection at the sources. -/
theorem after_take_keys (X : Valuation τ sig (Elt F)) :
    StableHlo.after hostOps1 X (Proc.devRef .tc main_v1)
      = takeRows (X (Proc.devRef .tc main_v0_1)) (X (Proc.devRef .tc main_arg2)) := by
  after_results_simp
  simp only [TRef.toBuf, TRef.ofBuf, cast_self]
  unfold takeRows validRow startCol
  rfl

end Cert.KernelIdeal.HostValue

end
-- ==== Proof.HostTakeQueries.lean ====
/-
  One of the three stretches of host operations between the regions: it leaves, in its result buffer, the rows of its
  table at its node numbers (with the validity mask's fill), whatever the buffers held before it.
-/
import proofs.«411189_j26482768347806_1_alg».proof.Proof.HostTakeDefs

set_option maxRecDepth 16384

noncomputable section

namespace Cert.KernelIdeal.HostValue

open Cert.KernelIdeal Cert.KernelIdeal.Gen Cert.EdgeAttn
open Idealize.ShloMosaic Idealize.ShloMosaic.TcCoe Idealize.SL.Sem Idealize.ShloMosaic.ValueIdx Idealize.ShloMosaic.StableHlo

variable {F : FTy → Type} [FloatOps F]

/-- The second stretch: the rows of the first projection at the destinations. -/
theorem after_take_queries (X : Valuation τ sig (Elt F)) :
    StableHlo.after hostOps1_1 X (Proc.devRef .tc main_v2)
      = takeRows (X (Proc.devRef .tc main_v0_0)) (X (Proc.devRef .tc main_arg3)) := by
  after_results_simp
  simp only [TRef.toBuf, TRef.ofBuf, cast_self]
  unfold takeRows validRow startCol
  rfl

end Cert.KernelIdeal.HostValue

end
-- ==== Proof.HostTakeValues.lean ====
/-
  One of the three stretches of host operations between the regions: it leaves, in its result buffer, the rows of its
  table at its node numbers (with the validity mask's fill), whatever the buffers held before it.
-/
import proofs.«411189_j26482768347806_1_alg».proof.Proof.HostTakeDefs

set_option maxRecDepth 16384

noncomputable section

namespace Cert.KernelIdeal.HostValue

open Cert.KernelIdeal Cert.KernelIdeal.Gen Cert.EdgeAttn
open Idealize.ShloMosaic Idealize.ShloMosaic.TcCoe Idealize.SL.Sem Idealize.ShloMosaic.ValueIdx Idealize.ShloMosaic.StableHlo

variable {F : FTy → Type} [FloatOps F]

/-- The third stretch: the rows of the third projection at the sources. -/
theorem after_take_values (X : Valuation τ sig (Elt F)) :
    StableHlo.after hostOps1_2 X (Proc.devRef .tc main_v3)
      = takeRows (X (Proc.devRef .tc main_v0_2)) (X (Proc.devRef .tc main_arg2)) := by
  after_results_simp
  simp only [TRef.toBuf, TRef.ofBuf, cast_self]
  unfold takeRows validRow startCol
  rfl

end Cert.KernelIdeal.HostValue

end
-- ==== Proof.HostTakeStretch.lean ====
/-
  The three stretches of host operations between the regions, each leaving the rows of its table at its node numbers.
-/
import proofs.«411189_j26482768347806_1_alg».proof.Proof.HostTakeKeys
import proofs.«411189_j26482768347806_1_alg».proof.Proof.HostTakeQueries
import proofs.«411189_j26482768347806_1_alg».proof.Proof.HostTakeValues
-- ==== Proof.Boundaries.lean ====
/-
  What the buffers hold at the entry of the edge region and at its exit, read back through the segments of the
  program: the arguments are never written, each projection is written by the node region only, and each gathered
  table by its own stretch only.
-/
import proofs.«411189_j26482768347806_1_alg».proof.Proof.HostTakeStretch

set_option maxRecDepth 16384

noncomputable section

namespace Cert.KernelIdeal.Boundaries

open Cert.KernelIdeal Cert.KernelIdeal.Gen Cert.KernelIdeal.HostValue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ### What a stretch does not write it leaves as found

Each stretch writes its own temporaries and its one result buffer; the lemmas below read one of the other buffers
after the stretch, over any contents X before it. -/

private theorem keeps1_arg1 (X : Valuation τ sig (Elt F)) :
    StableHlo.after hostOps1 X (Proc.devRef .tc main_arg1) = X (Proc.devRef .tc main_arg1) := by
  after_results_simp

private theorem keeps1_arg7 (X : Valuation τ sig (Elt F)) :
    StableHlo.after hostOps1 X (Proc.devRef .tc main_arg7) = X (Proc.devRef .tc main_arg7) := by
  after_results_simp

private theorem keeps1_arg3 (X : Valuation τ sig (Elt F)) :
    StableHlo.after hostOps1 X (Proc.devRef .tc main_arg3) = X (Proc.devRef .tc main_arg3) := by
  after_results_simp

private theorem keeps1_arg2 (X : Valuation τ sig (Elt F)) :
    StableHlo.after hostOps1 X (Proc.devRef .tc main_arg2) = X (Proc.devRef .tc main_arg2) := by
  after_results_simp

private theorem keeps1_v0_0 (X : Valuation τ sig (Elt F)) :
    StableHlo.after hostOps1 X (Proc.devRef .tc main_v0_0) = X (Proc.devRef .tc main_v0_0) := by
  after_results_simp

private theorem keeps1_v0_2 (X : Valuation τ sig (Elt F)) :
    StableHlo.after hostOps1 X (Proc.devRef .tc main_v0_2) = X (Proc.devRef .tc main_v0_2) := by
  after_results_simp

private theorem keeps2_arg1 (X : Valuation τ sig (Elt F)) :
    StableHlo.after hostOps1_1 X (Proc.devRef .tc main_arg1) = X (Proc.devRef .tc main_arg1) := by
  after_results_simp

private theorem keeps2_arg7 (X : Valuation τ sig (Elt F)) :
    StableHlo.after hostOps1_1 X (Proc.devRef .tc main_arg7) = X (Proc.devRef .tc main_arg7) := by
  after_results_simp

private theorem keeps2_arg3 (X : Valuation τ sig (Elt F)) :
    StableHlo.after hostOps1_1 X (Proc.devRef .tc main_arg3) = X (Proc.devRef .tc main_arg3) := by
  after_results_simp

private theorem keeps2_arg2 (X : Valuation τ sig (Elt F)) :
    StableHlo.after hostOps1_1 X (Proc.devRef .tc main_arg2) = X (Proc.devRef .tc main_arg2) := by
  after_results_simp

private theorem keeps2_v1 (X : Valuation τ sig (Elt F)) :
    StableHlo.after hostOps1_1 X (Proc.devRef .tc main_v1) = X (Proc.devRef .tc main_v1) := by
  after_results_simp

private theorem keeps2_v0_2 (X : Valuation τ sig (Elt F)) :
    StableHlo.after hostOps1_1 X (Proc.devRef .tc main_v0_2) = X (Proc.devRef .tc main_v0_2) := by
  after_results_simp

private theorem keeps3_arg1 (X : Valuation τ sig (Elt F)) :
    StableHlo.after hostOps1_2 X (Proc.devRef .tc main_arg1) = X (Proc.devRef .tc main_arg1) := by
  after_results_simp

private theorem keeps3_arg7 (X : Valuation τ sig (Elt F)) :
    StableHlo.after hostOps1_2 X (Proc.devRef .tc main_arg7) = X (Proc.devRef .tc main_arg7) := by
  after_results_simp

private theorem keeps3_arg3 (X : Valuation τ sig (Elt F)) :
    StableHlo.after hostOps1_2 X (Proc.devRef .tc main_arg3) = X (Proc.devRef .tc main_arg3) := by
  after_results_simp

private theorem keeps3_v1 (X : Valuation τ sig (Elt F)) :
    StableHlo.after hostOps1_2 X (Proc.devRef .tc main_v1) = X (Proc.devRef .tc main_v1) := by
  after_results_simp

private theorem keeps3_v2 (X : Valuation τ sig (Elt F)) :
    StableHlo.after hostOps1_2 X (Proc.devRef .tc main_v2) = X (Proc.devRef .tc main_v2) := by
  after_results_simp

/-! ### The node region's exit

An argument that is not one of the node region's arrays is at the region's exit what the launch memory holds. -/

private theorem exit0_arg1 (c : Dev nD) :
    W1 m ρ c (Proc.devRef .tc main_arg1) = m ((c.tc : Thread nD τ).loc main_arg1) :=
  (W1_of_ne m ρ c main_arg1 (by decide)).trans rfl

private theorem exit0_arg2 (c : Dev nD) :
    W1 m ρ c (Proc.devRef .tc main_arg2) = m ((c.tc : Thread nD τ).loc main_arg2) :=
  (W1_of_ne m ρ c main_arg2 (by decide)).trans rfl

private theorem exit0_arg3 (c : Dev nD) :
    W1 m ρ c (Proc.devRef .tc main_arg3) = m ((c.tc : Thread nD τ).loc main_arg3) :=
  (W1_of_ne m ρ c main_arg3 (by decide)).trans rfl

private theorem exit0_arg7 (c : Dev nD) :
    W1 m ρ c (Proc.devRef .tc main_arg7) = m ((c.tc : Thread nD τ).loc main_arg7) :=
  (W1_of_ne m ρ c main_arg7 (by decide)).trans rfl

/-! ### The boundaries -/

/-- The edge features at the edge region's entry are the argument. -/
theorem edge_features_at_entry (c : Dev nD) :
    W4 m ρ c (Proc.devRef .tc main_arg1) = m ((c.tc : Thread nD τ).loc main_arg1) :=
  calc W4 m ρ c (Proc.devRef .tc main_arg1)
    _ = W3 m ρ c (Proc.devRef .tc main_arg1) := keeps3_arg1 (W3 m ρ c)
    _ = W2 m ρ c (Proc.devRef .tc main_arg1) := keeps2_arg1 (W2 m ρ c)
    _ = W1 m ρ c (Proc.devRef .tc main_arg1) := keeps1_arg1 (W1 m ρ c)
    _ = m ((c.tc : Thread nD τ).loc main_arg1) := exit0_arg1 m ρ c

/-- The edge weight matrix at the edge region's entry is the argument. -/
theorem edge_weights_at_entry (c : Dev nD) :
    W4 m ρ c (Proc.devRef .tc main_arg7) = m ((c.tc : Thread nD τ).loc main_arg7) :=
  calc W4 m ρ c (Proc.devRef .tc main_arg7)
    _ = W3 m ρ c (Proc.devRef .tc main_arg7) := keeps3_arg7 (W3 m ρ c)
    _ = W2 m ρ c (Proc.devRef .tc main_arg7) := keeps2_arg7 (W2 m ρ c)
    _ = W1 m ρ c (Proc.devRef .tc main_arg7) := keeps1_arg7 (W1 m ρ c)
    _ = m ((c.tc : Thread nD τ).loc main_arg7) := exit0_arg7 m ρ c

/-- The destinations at the edge region's exit are the argument. -/
theorem destinations_at_exit (c : Dev nD) :
    W5 m ρ c (Proc.devRef .tc main_arg3) = m ((c.tc : Thread nD τ).loc main_arg3) :=
  -- the destinations are not an array of the edge region
  calc W5 m ρ c (Proc.devRef .tc main_arg3)
    _ = W4 m ρ c (Proc.devRef .tc main_arg3) := W5_of_ne m ρ c main_arg3 (by decide)
    _ = W3 m ρ c (Proc.devRef .tc main_arg3) := keeps3_arg3 (W3 m ρ c)
    _ = W2 m ρ c (Proc.devRef .tc main_arg3) := keeps2_arg3 (W2 m ρ c)
    _ = W1 m ρ c (Proc.devRef .tc main_arg3) := keeps1_arg3 (W1 m ρ c)
    _ = m ((c.tc : Thread nD τ).loc main_arg3) := exit0_arg3 m ρ c

/-- At the edge region's entry the key rows are the rows of the node region's second output at the sources. -/
theorem keys_at_entry (c : Dev nD) :
    W4 m ρ c (Proc.devRef .tc main_v1)
      = takeRows ((dat0 (V0 m ρ) c).arrAt 5 cfg0.N) (m ((c.tc : Thread nD τ).loc main_arg2)) :=
  -- written by the first stretch from the node region's second output (its array 5) and the sources
  calc W4 m ρ c (Proc.devRef .tc main_v1)
    _ = W3 m ρ c (Proc.devRef .tc main_v1) := keeps3_v1 (W3 m ρ c)
    _ = W2 m ρ c (Proc.devRef .tc main_v1) := keeps2_v1 (W2 m ρ c)
    _ = takeRows (W1 m ρ c (Proc.devRef .tc main_v0_1)) (W1 m ρ c (Proc.devRef .tc main_arg2)) :=
        after_take_keys (W1 m ρ c)
    _ = takeRows ((dat0 (V0 m ρ) c).arrAt 5 cfg0.N) (m ((c.tc : Thread nD τ).loc main_arg2)) :=
        congrArg₂ takeRows (W1_arr m ρ c 5) (exit0_arg2 m ρ c)

/-- At the edge region's entry the query rows are the rows of the node region's first output at the destinations. -/
theorem queries_at_entry (c : Dev nD) :
    W4 m ρ c (Proc.devRef .tc main_v2)
      = takeRows ((dat0 (V0 m ρ) c).arrAt 4 cfg0.N) (m ((c.tc : Thread nD τ).loc main_arg3)) :=
  -- written by the second stretch from the node region's first output (its array 4) and the destinations, both
  -- untouched by the first stretch
  calc W4 m ρ c (Proc.devRef .tc main_v2)
    _ = W3 m ρ c (Proc.devRef .tc main_v2) := keeps3_v2 (W3 m ρ c)
    _ = takeRows (W2 m ρ c (Proc.devRef .tc main_v0_0)) (W2 m ρ c (Proc.devRef .tc main_arg3)) :=
        after_take_queries (W2 m ρ c)
    _ = takeRows (W1 m ρ c (Proc.devRef .tc main_v0_0)) (W1 m ρ c (Proc.devRef .tc main_arg3)) :=
        congrArg₂ takeRows (keeps1_v0_0 (W1 m ρ c)) (keeps1_arg3 (W1 m ρ c))
    _ = takeRows ((dat0 (V0 m ρ) c).arrAt 4 cfg0.N) (m ((c.tc : Thread nD τ).loc main_arg3)) :=
        congrArg₂ takeRows (W1_arr m ρ c 4) (exit0_arg3 m ρ c)

/-- At the edge region's entry the value rows are the rows of the node region's third output at the sources. -/
theorem values_at_entry (c : Dev nD) :
    W4 m ρ c (Proc.devRef .tc main_v3)
      = takeRows ((dat0 (V0 m ρ) c).arrAt 6 cfg0.N) (m ((c.tc : Thread nD τ).loc main_arg2)) :=
  -- written by the third stretch from the node region's third output (its array 6) and the sources, both
  -- untouched by the first two stretches
  calc W4 m ρ c (Proc.devRef .tc main_v3)
    _ = takeRows (W3 m ρ c (Proc.devRef .tc main_v0_2)) (W3 m ρ c (Proc.devRef .tc main_arg2)) :=
        after_take_values (W3 m ρ c)
    _ = takeRows (W2 m ρ c (Proc.devRef .tc main_v0_2)) (W2 m ρ c (Proc.devRef .tc main_arg2)) :=
        congrArg₂ takeRows (keeps2_v0_2 (W2 m ρ c)) (keeps2_arg2 (W2 m ρ c))
    _ = takeRows (W1 m ρ c (Proc.devRef .tc main_v0_2)) (W1 m ρ c (Proc.devRef .tc main_arg2)) :=
        congrArg₂ takeRows (keeps1_v0_2 (W1 m ρ c)) (keeps1_arg2 (W1 m ρ c))
    _ = takeRows ((dat0 (V0 m ρ) c).arrAt 6 cfg0.N) (m ((c.tc : Thread nD τ).loc main_arg2)) :=
        congrArg₂ takeRows (W1_arr m ρ c 6) (exit0_arg2 m ρ c)

end Cert.KernelIdeal.Boundaries

end
-- ==== Proof.TakeRows.lean ====
/-
  When every node number is a row of the table, the validity mask of a row gather is all ones, the shift of negative
  numbers does nothing, and the gather reads each number's own row: the stretch's result is the table's rows at the
  numbers.
-/
import proofs.«411189_j26482768347806_1_alg».proof.Proof.HostTakeDefs
import Idealize.ShloMosaic.Lib.ReduceAll

set_option maxRecDepth 16384

noncomputable section

namespace Cert.KernelIdeal.HostValue

open Cert.KernelIdeal Cert.KernelIdeal.Gen Cert.EdgeAttn
open Idealize.ShloMosaic Idealize.ShloMosaic.TcCoe Idealize.SL.Sem Idealize.ShloMosaic.ValueIdx Idealize.ShloMosaic.StableHlo

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_one f hf l

/-- A reduction by `and` from an initial value 1 over an operand that is 1 everywhere is 1. -/
theorem reduce_andi_one {s t u : Shape} {axes : List (Fin s.rank)} (x : s.Idx → BitVec 1) (init : u.Idx → BitVec 1)
    (hr : s.ReducesTo axes t) (hu : 0 < u.numel) (j : t.Idx) (hi : ∀ k, init k = 1#1) (hx : ∀ i, x i = 1#1) :
    Host.reduce IntOp.andi x init hr hu j = 1#1 := by
  rw [Host.reduce_eq_foldl, hi]
  exact foldl_andi_one x hx _

/-- A number that is not negative is not shifted: the start index of edge e is its node number. -/
theorem startCol_apply (num : IVec S640000 32) (e : Fin 640000) (h0 : 0 ≤ (num (ix1 e)).toInt) :
    startCol num (ix2 e (0 : Fin 1)) = num (ix1 e) := by
  unfold startCol
  refine (broadcastInDim_apply _ bcast_S640000_S640000x1_0 _ (ix2 e (0 : Fin 1)) (ix1 e) (fun a => match a with
    | ⟨0, _⟩ => by show e.val = if (640000 : Nat) = 1 then 0 else e.val; rw [if_neg (by decide)])).trans ?_
  rw [select_apply]
  have hc : cmpi .slt num (broadcastInDim (s := S_) S640000 ![] bcast_S_S640000 (constantI S_ 32 0#32)) (ix1 e) = 0#1 := by
    refine eq_zero_of_ne_one fun h1 => ?_
    have h2 : (num (ix1 e)).toInt < (0#32 : BitVec 32).toInt := IntOp.cmpi_slt.1 h1
    rw [show (0#32 : BitVec 32).toInt = 0 from by decide] at h2
    omega
  rw [hc, select_zero]

/-- With every number in [0, 10000) the validity mask is 1 at every edge. -/
theorem validRow_apply (num : IVec S640000 32)
    (h : ∀ e : Fin 640000, 0 ≤ (num (ix1 e)).toInt ∧ (num (ix1 e)).toInt < 10000) (j : S640000.Idx) :
    validRow num j = 1#1 := by
  unfold validRow
  refine reduce_andi_one _ _ _ _ j (fun _ => rfl) (fun i => ?_)
  obtain ⟨e, c, rfl⟩ : ∃ (e : Fin 640000) (c : Fin 1), i = ix2 e c := ⟨i 0, i 1, eq_ix2 i⟩
  obtain rfl : c = 0 := Subsingleton.elim _ _
  show IntOp.andi (IntOp.cmpi .sge (startCol num (ix2 e (0 : Fin 1))) 0#32)
    (IntOp.cmpi .sle (startCol num (ix2 e (0 : Fin 1))) 9999#32) = 1#1
  rw [startCol_apply num e (h e).1]
  have z0 : (0#32 : BitVec 32).toInt = 0 := by decide
  have z1 : (9999#32 : BitVec 32).toInt = 9999 := by decide
  have h2 := (h e).2
  exact IntOp.andi_eq_one.2 ⟨IntOp.cmpi_sge.2 (by rw [z0]; exact (h e).1), IntOp.cmpi_sle.2 (by rw [z1]; omega)⟩

/-- With every number in [0, 10000) the masked gather is the plain gather of rows. -/
theorem takeRows_eq (T : FVec Ideal S10000x128 .f32) (num : IVec S640000 32)
    (h : ∀ e : Fin 640000, 0 ≤ (num (ix1 e)).toInt ∧ (num (ix1 e)).toInt < 10000) :
    takeRows (F := Ideal) T num = gatherRows T num := by
  funext i
  obtain ⟨e, c, rfl⟩ : ∃ (e : Fin 640000) (c : Fin 128), i = ix2 e c := ⟨i 0, i 1, eq_ix2 i⟩
  unfold takeRows
  rw [select_apply]
  -- the mask at (e, c) is the mask of edge e, which is 1
  have hm : broadcastInDim (s := S640000) (α := BitVec 1) S640000x128 ![0] bcast_S640000_S640000x128_0 (validRow num)
      (ix2 e c) = 1#1 := by
    refine (broadcastInDim_apply _ bcast_S640000_S640000x128_0 _ (ix2 e c) (ix1 e) (fun a => match a with
      | ⟨0, _⟩ => by show e.val = if (640000 : Nat) = 1 then 0 else e.val; rw [if_neg (by decide)])).trans ?_
    exact validRow_apply num h (ix1 e)
  rw [hm, select_one]
  -- the gather reads the table's row at the clamped start index of edge e, which is the node number's row
  refine (Cert.LibGatherRows.gather_rows_apply (N := 10000) (D := 128) (R := 640000) (by decide) _ T (startCol num)
    e c).trans ?_
  show T (ix2 _ c) = T (ix2 (nodeRow (num (ix1 e))) c)
  refine congrArg (fun r => T (ix2 r c)) (Fin.ext ?_)
  exact congrArg (fun w : BitVec 32 => min w.toInt.toNat 9999) (startCol_apply num e (h e).1)

end Cert.KernelIdeal.HostValue

end
-- ==== Proof.NodeProj.lean ====
/-
  What the node-projection region leaves in its three output arrays: the matrix products of the node features with
  the three weight matrices, whatever the buffers held when the region was entered.
-/
import proofs.«411189_j26482768347806_1_alg».proof.Proof.Gen.KernelIdeal.Frame
import proofs.«411189_j26482768347806_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.NodeValue

open Cert.KernelIdeal Cert.KernelIdeal.Gen Cert.EdgeAttn
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The product of a block of 2000 rows with a weight matrix, entry by entry -/

/-- The left operand's row is the result's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the summation index. -/
theorem lhs_inner (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the summation index. -/
theorem rhs_inner (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product onto a zero accumulator, read at an entry: the sum over the 128 inner positions. -/
theorem matmul_entry (X : FVec Ideal S2000x128 .bf16) (W : FVec Ideal S128x128 .bf16) (i : S2000x128.Idx) :
    matmul dot_S2000x128_S128x128_S2000x128_1_0_0_1_n_n none X W (constant S2000x128 .f32 0x00000000#32) i
      = ∑ k : Fin 128, X (ix2 (i 0) k) * W (ix2 k (i 1)) := by
  refine (Ideal.matmul_constant_zero_apply dot_S2000x128_S128x128_S2000x128_1_0_0_1_n_n none X W i).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx i ((contrEquiv1 dot_S2000x128_S128x128_S2000x128_1_0_0_1_n_n 128 rfl rfl).symm k) = ix2 (i 0) k := funext fun a => Fin.ext (by
    match a with
    | ⟨0, _⟩ => exact lhs_row _ _
    | ⟨1, _⟩ => exact (lhs_inner _ _).trans hk)
  have er : dot_S2000x128_S128x128_S2000x128_1_0_0_1_n_n.rhsIdx i ((contrEquiv1 dot_S2000x128_S128x128_S2000x128_1_0_0_1_n_n 128 rfl rfl).symm k) = ix2 k (i 1) := funext fun a => Fin.ext (by
    match a with
    | ⟨0, _⟩ => exact (rhs_inner _ _).trans hk
    | ⟨1, _⟩ => exact rhs_col _ _)
  exact congrArg₂ (· * ·) (congrArg X el) (congrArg W er)

/-- The three payloads are that product of the loaded blocks (narrowing the format changes no value). -/
theorem pay2_entry (X : Vec Ideal S2000x128 .f32) (W : Vec Ideal S128x128 .f32) (i : S2000x128.Idx) :
    k0_pay2 (F := Ideal) X W i = ∑ k : Fin 128, X (ix2 (i 0) k) * W (ix2 k (i 1)) := by
  unfold k0_pay2 k0_pay1
  exact matmul_entry _ _ i
theorem pay3_entry (X : Vec Ideal S2000x128 .f32) (W : Vec Ideal S128x128 .f32) (i : S2000x128.Idx) :
    k0_pay3 (F := Ideal) X W i = ∑ k : Fin 128, X (ix2 (i 0) k) * W (ix2 k (i 1)) := by
  unfold k0_pay3 k0_pay1
  exact matmul_entry _ _ i
theorem pay4_entry (X : Vec Ideal S2000x128 .f32) (W : Vec Ideal S128x128 .f32) (i : S2000x128.Idx) :
    k0_pay4 (F := Ideal) X W i = ∑ k : Fin 128, X (ix2 (i 0) k) * W (ix2 k (i 1)) := by
  unfold k0_pay4 k0_pay1
  exact matmul_entry _ _ i

/-! ## The windows' blocks as rows of the arrays -/

/-- The whole-buffer loads and stores start at offset zero on both axes. -/
theorem zero_offsets : (![0, 0] : Fin 2 → Nat) = fun _ => 0 := funext fun a => by fin_cases a <;> rfl

/-- The windows' index maps at each of the five points: the features' window and the three outputs' move down
    one block of rows per point; the weights' windows stay on their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The features' block at point t is rows 2000 t … 2000 t + 1999 of the node features. -/
theorem rows_read (c : Dev nD) (t : Fin cfg0.N) (y : S2000x128.Idx) (i : S10000x128.Idx)
    (h0 : (i 0).val = t.val * 2000 + (y 0).val) (h1 : (i 1).val = (y 1).val) :
    (iblk0 V c 0 t : Vec Ideal S2000x128 .f32) y = (V c main_arg0 : S10000x128.Idx → EReal) i := by
  obtain ⟨e0, e1, -⟩ := index_facts t
  show V c main_arg0 (((cfg0.win 0).blk t).view.emb y) = V c main_arg0 i
  congr 1
  funext a
  apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- Each weight window's block is its whole matrix, at every point. -/
theorem weights1_read (c : Dev nD) (t : Fin cfg0.N) (y : S128x128.Idx) :
    (iblk0 V c 1 t : Vec Ideal S128x128 .f32) y = (V c main_arg4 : S128x128.Idx → EReal) y := by
  obtain ⟨-, -, e0, e1, -⟩ := index_facts t
  show V c main_arg4 (((cfg0.win 1).blk t).view.emb y) = V c main_arg4 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem weights2_read (c : Dev nD) (t : Fin cfg0.N) (y : S128x128.Idx) :
    (iblk0 V c 2 t : Vec Ideal S128x128 .f32) y = (V c main_arg5 : S128x128.Idx → EReal) y := by
  obtain ⟨-, -, -, -, e0, e1, -⟩ := index_facts t
  show V c main_arg5 (((cfg0.win 2).blk t).view.emb y) = V c main_arg5 y
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem weights3_read (c : Dev nD) (t : Fin cfg0.N) (y : S128x128.Idx) :
    (iblk0 V c 3 t : Vec Ideal S128x128 .f32) y = (V c main_arg6 : S128x128.Idx → EReal) y := by
  obtain ⟨-, -, -, -, -, -, e0, e1, -⟩ := index_facts t
  show V c main_arg6 (((cfg0.win 3).blk t).view.emb y) = V c main_arg6 y
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The output windows' index maps alone. -/
theorem out_index_facts4 (t : Fin cfg0.N) : win0_4.index t (0 : Fin 2) = t.val ∧ win0_4.index t (1 : Fin 2) = 0 := by
  obtain ⟨-, -, -, -, -, -, -, -, e0, e1, -⟩ := index_facts t; exact ⟨e0, e1⟩
theorem out_index_facts5 (t : Fin cfg0.N) : win0_5.index t (0 : Fin 2) = t.val ∧ win0_5.index t (1 : Fin 2) = 0 := by
  obtain ⟨-, -, -, -, -, -, -, -, -, -, e0, e1, -⟩ := index_facts t; exact ⟨e0, e1⟩
theorem out_index_facts6 (t : Fin cfg0.N) : win0_6.index t (0 : Fin 2) = t.val ∧ win0_6.index t (1 : Fin 2) = 0 := by
  obtain ⟨-, -, -, -, -, -, -, -, -, -, -, -, e0, e1⟩ := index_facts t; exact ⟨e0, e1⟩

/-- Every one of the five row blocks is some point's. -/
theorem point_of_row : ∀ q : Fin 5, ∃ t : Fin cfg0.N, t.val = q.val :=
  (by decide +kernel : ∀ q : Fin 5, ∃ t : Fin grid0.N, t.val = q.val)

/-! ## A block of rows of the product is the product of the block of rows -/

/-- If Xb holds rows 2000 n … 2000 n + 1999 of x and Wb holds W, the product of Xb with Wb at (r, c) is the
    whole product x W at (2000 n + r, c). -/
theorem block_product (x : S10000x128.Idx → EReal) (W : S128x128.Idx → EReal)
    (Xb : Vec Ideal S2000x128 .f32) (Wb : Vec Ideal S128x128 .f32) (n : Nat)
    (hX : ∀ (y : S2000x128.Idx) (i : S10000x128.Idx), (i 0).val = n * 2000 + (y 0).val → (i 1).val = (y 1).val → Xb y = x i)
    (hW : ∀ y : S128x128.Idx, Wb y = W y) (j : S2000x128.Idx) (i : S10000x128.Idx)
    (h0 : (i 0).val = n * 2000 + (j 0).val) (h1 : (i 1).val = (j 1).val) :
    ∑ k : Fin 128, Xb (ix2 (j 0) k) * Wb (ix2 k (j 1)) = projArr x W i := by
  show _ = ∑ k : Fin 128, x (ix2 (i 0) k) * W (ix2 k (i 1))
  refine Finset.sum_congr rfl fun k _ => ?_
  have hc : (i 1 : Fin 128) = j 1 := Fin.ext h1
  rw [hX (ix2 (j 0) k) (ix2 (i 0) k) h0 rfl, hW, hc]

/-! ## The three output arrays -/

/-- What point t writes back to the queries' array is block t of the product. -/
theorem flushed_queries (c : Dev nD) (t : Fin cfg0.N) :
    (dat0 V c).flushed 4 t
      = ((cfg0.win 4).blk t).view.read (Elt Ideal) (projArr (V c main_arg0) (V c main_arg4) : S10000x128.Idx → EReal) := by
  show (cfg0.win 4).cut (grid0.coords t) ((dat0 V c).after 4 t) = _
  rw [after0_4]
  unfold out0_4
  rw [View.canon_unit_zero zero_offsets]
  simp only [View.ld_unit_zero (S := S2000x128) zero_offsets, View.ld_unit_zero (S := S128x128) zero_offsets]
  obtain ⟨e0, e1⟩ := out_index_facts4 t
  funext j
  show k0_pay2 (F := Ideal) (iblk0 V c 0 t) (iblk0 V c 1 t) j
    = projArr (V c main_arg0) (V c main_arg4) (((cfg0.win 4).blk t).view.emb j)
  refine (pay2_entry _ _ j).trans ?_
  refine block_product (V c main_arg0) (V c main_arg4) _ _ t.val (rows_read V c t) (weights1_read V c t) j _ ?_ ?_
  · show win0_4.index t (0 : Fin 2) * 2000 + 1 * (j 0).val = t.val * 2000 + (j 0).val; omega
  · show win0_4.index t (1 : Fin 2) * 128 + 1 * (j 1).val = (j 1).val; omega

/-- An index of the queries' array is in point t's block iff each coordinate is in the block's range on its axis. -/
theorem mem_block_queries (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v0_0).slice (win0_4.rect t)).set ↔ _
  rw [View.set_slice_whole, Rect.mem_set_unit]
  exact Iff.rfl

/-- Row r of the queries' array is in the block of point r / 2000, which is written back. -/
theorem cover_queries (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := point_of_row ⟨(i 0).val / 2000, by omega⟩
  have ht' : t.val = (i 0).val / 2000 := ht
  obtain ⟨e0, e1⟩ := out_index_facts4 t
  refine ⟨t, flush0_4 t, ?_⟩
  rw [mem_block_queries]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- What point t writes back to the keys' array is block t of the product. -/
theorem flushed_keys (c : Dev nD) (t : Fin cfg0.N) :
    (dat0 V c).flushed 5 t
      = ((cfg0.win 5).blk t).view.read (Elt Ideal) (projArr (V c main_arg0) (V c main_arg5) : S10000x128.Idx → EReal) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets]
  obtain ⟨e0, e1⟩ := out_index_facts5 t
  funext j
  show k0_pay3 (F := Ideal) (iblk0 V c 0 t) (iblk0 V c 2 t) j
    = projArr (V c main_arg0) (V c main_arg5) (((cfg0.win 5).blk t).view.emb j)
  refine (pay3_entry _ _ j).trans ?_
  refine block_product (V c main_arg0) (V c main_arg5) _ _ t.val (rows_read V c t) (weights2_read V c t) j _ ?_ ?_
  · show win0_5.index t (0 : Fin 2) * 2000 + 1 * (j 0).val = t.val * 2000 + (j 0).val; omega
  · show win0_5.index t (1 : Fin 2) * 128 + 1 * (j 1).val = (j 1).val; omega

/-- An index of the keys' array is in point t's block iff each coordinate is in the block's range on its axis. -/
theorem mem_block_keys (t : Fin cfg0.N) (i : S10000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v0_1).slice (win0_5.rect t)).set ↔ _
  rw [View.set_slice_whole, Rect.mem_set_unit]
  exact Iff.rfl

/-- Row r of the keys' array is in the block of point r / 2000, which is written back. -/
theorem cover_keys (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := point_of_row ⟨(i 0).val / 2000, by omega⟩
  have ht' : t.val = (i 0).val / 2000 := ht
  obtain ⟨e0, e1⟩ := out_index_facts5 t
  refine ⟨t, flush0_5 t, ?_⟩
  rw [mem_block_keys]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- What point t writes back to the values' array is block t of the product. -/
theorem flushed_values (c : Dev nD) (t : Fin cfg0.N) :
    (dat0 V c).flushed 6 t
      = ((cfg0.win 6).blk t).view.read (Elt Ideal) (projArr (V c main_arg0) (V c main_arg6) : S10000x128.Idx → EReal) := by
  show (cfg0.win 6).cut (grid0.coords t) ((dat0 V c).after 6 t) = _
  rw [after0_6]
  unfold out0_6
  rw [View.canon_unit_zero zero_offsets]
  simp only [View.ld_unit_zero (S := S2000x128) zero_offsets, View.ld_unit_zero (S := S128x128) zero_offsets]
  obtain ⟨e0, e1⟩ := out_index_facts6 t
  funext j
  show k0_pay4 (F := Ideal) (iblk0 V c 0 t) (iblk0 V c 3 t) j
    = projArr (V c main_arg0) (V c main_arg6) (((cfg0.win 6).blk t).view.emb j)
  refine (pay4_entry _ _ j).trans ?_
  refine block_product (V c main_arg0) (V c main_arg6) _ _ t.val (rows_read V c t) (weights3_read V c t) j _ ?_ ?_
  · show win0_6.index t (0 : Fin 2) * 2000 + 1 * (j 0).val = t.val * 2000 + (j 0).val; omega
  · show win0_6.index t (1 : Fin 2) * 128 + 1 * (j 1).val = (j 1).val; omega

/-- An index of the values' array is in point t's block iff each coordinate is in the block's range on its axis. -/
theorem mem_block_values (t : Fin cfg0.N) (i : S10000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v0_2).slice (win0_6.rect t)).set ↔ _
  rw [View.set_slice_whole, Rect.mem_set_unit]
  exact Iff.rfl

/-- Row r of the values' array is in the block of point r / 2000, which is written back. -/
theorem cover_values (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  obtain ⟨t, ht⟩ := point_of_row ⟨(i 0).val / 2000, by omega⟩
  have ht' : t.val = (i 0).val / 2000 := ht
  obtain ⟨e0, e1⟩ := out_index_facts6 t
  refine ⟨t, flush0_6 t, ?_⟩
  rw [mem_block_values]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The first output array ends holding x WQ. -/
theorem queries (c : Dev nD) :
    (dat0 (F := Ideal) V c).arrAt 4 cfg0.N = (projArr (V c main_arg0) (V c main_arg4) : S10000x128.Idx → EReal) :=
  (dat0 (F := Ideal) V c).arrAt_eq_of_cover 4 _ (fun t _ => flushed_queries V c t) cover_queries

/-- The second output array ends holding x WK. -/
theorem keys (c : Dev nD) :
    (dat0 (F := Ideal) V c).arrAt 5 cfg0.N = (projArr (V c main_arg0) (V c main_arg5) : S10000x128.Idx → EReal) :=
  (dat0 (F := Ideal) V c).arrAt_eq_of_cover 5 _ (fun t _ => flushed_keys V c t) cover_keys

/-- The third output array ends holding x WV. -/
theorem values (c : Dev nD) :
    (dat0 (F := Ideal) V c).arrAt 6 cfg0.N = (projArr (V c main_arg0) (V c main_arg6) : S10000x128.Idx → EReal) :=
  (dat0 (F := Ideal) V c).arrAt_eq_of_cover 6 _ (fun t _ => flushed_values V c t) cover_values

end Cert.KernelIdeal.NodeValue

end
-- ==== Proof.EdgeBlocks.lean ====
/-
  What the edge region's body leaves in its three output blocks, as functions of its five input blocks: the scores,
  the weighted values and the head weights of the block's 4000 edges.
-/
import proofs.«411189_j26482768347806_1_alg».proof.Proof.Gen.KernelIdeal.Frame
import proofs.«411189_j26482768347806_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeBlocks

open Cert.KernelIdeal Cert.KernelIdeal.Gen Cert.EdgeAttn
open Idealize.ShloMosaic Idealize.ShloMosaic.TcCoe Idealize.SL.Sem Idealize.ShloMosaic.ValueIdx
open scoped BigOperators

/-- The zero offsets of a whole-block rectangle, as the constant function. -/
theorem hz2 : (![0, 0] : Fin 2 → Nat) = fun _ => 0 := by
  funext a; fin_cases a <;> rfl

/-! ## The matrix product of the body read at an index -/

theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's matrix product into the zero block, at row r and column c: the sum over the 128 inner positions. -/
theorem matmul_rc {φ₁ φ₂ : FTy} (A : FVec Ideal S4000x128 φ₁) (B : FVec Ideal S128x128 φ₂) (r : Fin 4000) (c : Fin 128) :
    matmul dot_S4000x128_S128x128_S4000x128_1_0_0_1_n_n none A B (constant (F := Ideal) S4000x128 .f32 0x00000000#32) (ix2 r c)
      = ∑ k : Fin 128, A (ix2 r k) * B (ix2 k c) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r c) ((ValueIdx.contrEquiv1 dot_S4000x128_S128x128_S4000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S4000x128_S128x128_S4000x128_1_0_0_1_n_n.rhsIdx (ix2 r c) ((ValueIdx.contrEquiv1 dot_S4000x128_S128x128_S4000x128_1_0_0_1_n_n 128 rfl rfl).symm k) = ix2 k c := funext fun a => Fin.ext (by
    match a with
    | ⟨0, _⟩ => exact (rhs_mm_0 _ _).trans hk
    | ⟨1, _⟩ => exact rhs_mm_1 _ _)
  rw [el, er]

/-! ## The score block -/

/-- The score payload at row r and column c. -/
theorem pay6_rc (v0 v5 v7 : Vec Ideal S4000x128 .f32) (v2 : Vec Ideal S128x128 .f32) (r : Fin 4000) (c : Fin 128) :
    k1_pay6 v0 v2 v5 v7 (ix2 r c) = scoreOf (R := 4000) v0 v5 v7 v2 r c := by
  unfold k1_pay6
  simp only [shapeCast_self]
  rw [mulf_apply, minimumf_apply, maximumf_apply, mulf_apply, mulf_apply, broadcast_apply, broadcast_apply, broadcast_apply, matmul_rc]
  simp only [truncf_apply]
  rfl

/-- The score block: clamp (Ks * Qd / 4) * (ef We), row by row. -/
theorem score_block (x0 x1 x2 x3 : Vec Ideal S4000x128 .f32) (x4 : Vec Ideal S128x128 .f32) :
    out1_5 x0 x1 x2 x3 x4 = fun j => scoreOf (R := 4000) x0 x1 x2 x4 (j 0) (j 1) := by
  unfold out1_5
  rw [View.canon_unit_zero hz2]
  simp only [View.ld_unit_zero (S := S4000x128) hz2, View.ld_unit_zero (S := S128x128) hz2]
  funext j
  obtain ⟨r, c, rfl⟩ : ∃ (r : Fin 4000) (c : Fin 128), j = ix2 r c := ⟨j 0, j 1, eq_ix2 j⟩
  exact pay6_rc x0 x1 x2 x4 r c

/-! ## A head's weight -/

/-- The sum of the 16 columns of a block from column o on, kept as a one-column block, at row r. -/
theorem laneSum_apply (o : Nat) (ho : o + 16 ≤ 128) (hs : S4000x128.Slices ![0, o] S4000x16) (v18 : FVec Ideal S4000x128 .f32)
    (r : Fin 4000) (z : Fin 1) :
    shapeCast S4000x1 (multiReduction .add [1] S4000 (extractStridedSlice S4000x16 ![0, o] v18 hs) 0x00000000#32
        reduces_S4000x16_S4000 (.inl rfl) rfl) shapeCasts_S4000_S4000x1 (ix2 r z)
      = ∑ d : Fin 16, v18 (ix2 r ⟨o + d.val, by omega⟩) := by
  refine (shapeCast_apply _ shapeCasts_S4000_S4000x1 (ix2 r z) (ix1 r) ?_).trans ?_
  · rw [Shape.rowMajor_val_one, Shape.rowMajor_val_two]
    show r.val = r.val * 1 + z.val
    omega
  refine (Ideal.multiReduction_add_single _ 0x00000000#32 reduces_S4000x16_S4000 (.inl rfl) rfl (ix1 r)).trans ?_
  show ∑ d : Fin 16, extractStridedSlice S4000x16 ![0, o] v18 hs (reduces_S4000x16_S4000.lift (ix1 r) d) = _
  refine Finset.sum_congr rfl fun d _ => ?_
  exact extractStridedSlice_apply ![0, o] v18 hs _ (ix2 r ⟨o + d.val, by omega⟩) (fun a => match a with
    | ⟨0, _⟩ => by show r.val = 0 + r.val; omega
    | ⟨1, _⟩ => by show o + d.val = o + d.val; rfl)

/-- exp of the clamped sum of the 16 columns of a block from column o on, as a one-column block. -/
def hwPay (o : Nat) (hs : S4000x128.Slices ![0, o] S4000x16) (v18 : FVec Ideal S4000x128 .f32) : FVec Ideal S4000x1 .f32 :=
  exp (minimumf (broadcast S4000x1 (Scalar.ofBits .f32 0x40A00000#32))
    (maximumf (broadcast S4000x1 (Scalar.ofBits .f32 0xC0A00000#32))
      (shapeCast S4000x1 (multiReduction .add [1] S4000 (extractStridedSlice S4000x16 ![0, o] v18 hs) 0x00000000#32
        reduces_S4000x16_S4000 (.inl rfl) rfl) shapeCasts_S4000_S4000x1)))

theorem hwPay_apply (o : Nat) (ho : o + 16 ≤ 128) (hs : S4000x128.Slices ![0, o] S4000x16) (v18 : FVec Ideal S4000x128 .f32)
    (r : Fin 4000) (z : Fin 1) :
    hwPay o hs v18 (ix2 r z) = Ideal.exp (clamp5 (∑ d : Fin 16, v18 (ix2 r ⟨o + d.val, by omega⟩))) := by
  have e1 := laneSum_apply o ho hs v18 r z
  unfold hwPay
  show Ideal.exp (min (Ideal.ofBits .f32 0x40A00000#32) (max (Ideal.ofBits .f32 0xC0A00000#32)
    (shapeCast S4000x1 _ shapeCasts_S4000_S4000x1 (ix2 r z)))) = _
  rw [e1]
  rfl

/-- On the score block, that is the weight of head h, when o = 16 h. -/
theorem hw_rz (x0 x1 x2 : Vec Ideal S4000x128 .f32) (x4 : Vec Ideal S128x128 .f32) (h o : Nat) (hh : h < 8) (ho : o = 16 * h)
    (hs : S4000x128.Slices ![0, o] S4000x16) (r : Fin 4000) (z : Fin 1) :
    hwPay o hs (k1_pay6 x0 x4 x1 x2) (ix2 r z) = headWeightOf (R := 4000) x0 x1 x2 x4 r ⟨h, hh⟩ := by
  subst ho
  refine (hwPay_apply (16 * h) (by omega) hs _ r z).trans ?_
  unfold headWeightOf
  refine congrArg (fun t => Ideal.exp (clamp5 t)) (Finset.sum_congr rfl fun d _ => ?_)
  exact pay6_rc x0 x1 x2 x4 r _

/-- The piece of the head-weight block at column h. -/
theorem hw_piece (x0 x1 x2 : Vec Ideal S4000x128 .f32) (x4 : Vec Ideal S128x128 .f32) (h o : Nat) (hh : h < 8) (ho : o = 16 * h)
    (hs : S4000x128.Slices ![0, o] S4000x16) (inb : ∀ a, (![0, h] : Fin 2 → Nat) a + S4000x1.size a ≤ S4000x8.size a)
    (x : (Rect.unit (s := S4000x8) ![0, h] S4000x1.size inb).shape.Idx) :
    hwPay o hs (k1_pay6 x0 x4 x1 x2) x
      = (fun j : S4000x8.Idx => headWeightOf (R := 4000) x0 x1 x2 x4 (j 0) (j 1))
          ((Rect.unit (s := S4000x8) ![0, h] S4000x1.size inb).emb x) := by
  obtain ⟨r, z, rfl⟩ : ∃ (r : Fin 4000) (z : Fin 1), x = ix2 r z := ⟨x 0, x 1, eq_ix2 x⟩
  have e0 : (Rect.unit (s := S4000x8) ![0, h] S4000x1.size inb).emb (ix2 r z) 0 = r :=
    Fin.ext (by show 0 + 1 * r.val = r.val; omega)
  have e1 : (Rect.unit (s := S4000x8) ![0, h] S4000x1.size inb).emb (ix2 r z) 1 = (⟨h, hh⟩ : Fin 8) :=
    Fin.ext (by show h + 1 * z.val = h; omega)
  show _ = headWeightOf (R := 4000) x0 x1 x2 x4 _ _
  rw [e0, e1]
  exact hw_rz x0 x1 x2 x4 h o hh ho hs r z

/-- The head-weight block: eight columns, one per head. -/
theorem headWeight_block (x0 x1 x2 x3 : Vec Ideal S4000x128 .f32) (x4 : Vec Ideal S128x128 .f32) :
    out1_7 x0 x1 x2 x3 x4 = fun j => headWeightOf (R := 4000) x0 x1 x2 x4 (j 0) (j 1) := by
  unfold out1_7
  simp only [View.ld_unit_zero (S := S4000x128) hz2, View.ld_unit_zero (S := S128x128) hz2]
  funext y
  refine View.canon_apply_of_pieces (Val := Elt Ideal) (S := S4000x8) (e := .f32) (fun j : S4000x8.Idx => headWeightOf (R := 4000) x0 x1 x2 x4 (j 0) (j 1)) _ ?_ y
    (cover1_7 _ _ _ _ _ _ _ _ y)
  intro p hp
  simp only [List.mem_cons, List.mem_singleton, List.not_mem_nil, or_false] at hp
  rcases hp with rfl | rfl | rfl | rfl | rfl | rfl | rfl | rfl
  · exact hw_piece x0 x1 x2 x4 7 112 (by omega) rfl slices_S4000x128_o0_112_S4000x16 inb_S4000x8_S4000x1_0_7
  · exact hw_piece x0 x1 x2 x4 6 96 (by omega) rfl slices_S4000x128_o0_96_S4000x16 inb_S4000x8_S4000x1_0_6
  · exact hw_piece x0 x1 x2 x4 5 80 (by omega) rfl slices_S4000x128_o0_80_S4000x16 inb_S4000x8_S4000x1_0_5
  · exact hw_piece x0 x1 x2 x4 4 64 (by omega) rfl slices_S4000x128_o0_64_S4000x16 inb_S4000x8_S4000x1_0_4
  · exact hw_piece x0 x1 x2 x4 3 48 (by omega) rfl slices_S4000x128_o0_48_S4000x16 inb_S4000x8_S4000x1_0_3
  · exact hw_piece x0 x1 x2 x4 2 32 (by omega) rfl slices_S4000x128_o0_32_S4000x16 inb_S4000x8_S4000x1_0_2
  · exact hw_piece x0 x1 x2 x4 1 16 (by omega) rfl slices_S4000x128_o0_16_S4000x16 inb_S4000x8_S4000x1_0_1
  · exact hw_piece x0 x1 x2 x4 0 0 (by omega) rfl slices_S4000x128_o0_0_S4000x16 inb_S4000x8_S4000x1_0_0

/-! ## A head's band of weighted values -/

/-- The 16 columns of a block from column o on, each row times that row's entry of a one-column block. -/
def bandPay (o : Nat) (hs : S4000x128.Slices ![0, o] S4000x16) (v10 : FVec Ideal S4000x128 .f32) (w : FVec Ideal S4000x1 .f32) :
    FVec Ideal S4000x16 .f32 :=
  mulf (extractStridedSlice S4000x16 ![0, o] v10 hs) (broadcastTo S4000x16 w broadcasts_S4000x1_S4000x16)

theorem bandPay_apply (o : Nat) (ho : o + 16 ≤ 128) (hs : S4000x128.Slices ![0, o] S4000x16) (v10 : FVec Ideal S4000x128 .f32)
    (w : FVec Ideal S4000x1 .f32) (r : Fin 4000) (d : Fin 16) :
    bandPay o hs v10 w (ix2 r d) = v10 (ix2 r ⟨o + d.val, by omega⟩) * w (ix2 r 0) := by
  unfold bandPay
  rw [mulf_apply]
  have ea : extractStridedSlice S4000x16 ![0, o] v10 hs (ix2 r d) = v10 (ix2 r ⟨o + d.val, by omega⟩) :=
    extractStridedSlice_apply ![0, o] v10 hs _ (ix2 r ⟨o + d.val, by omega⟩) (fun a => match a with
      | ⟨0, _⟩ => by show r.val = 0 + r.val; omega
      | ⟨1, _⟩ => by show o + d.val = o + d.val; rfl)
  have eb : broadcastTo S4000x16 w broadcasts_S4000x1_S4000x16 (ix2 r d) = w (ix2 r 0) :=
    broadcastTo_apply w broadcasts_S4000x1_S4000x16 (ix2 r d) (ix2 r 0) (fun a => match a with
      | ⟨0, _⟩ => rfl
      | ⟨1, _⟩ => rfl)
  rw [ea, eb]

/-- The piece of the weighted-value block at the columns of head h. -/
theorem band_piece (x0 x1 x2 x3 : Vec Ideal S4000x128 .f32) (x4 : Vec Ideal S128x128 .f32) (h o : Nat) (hh : h < 8) (ho : o = 16 * h)
    (hs : S4000x128.Slices ![0, o] S4000x16) (inb : ∀ a, (![0, o] : Fin 2 → Nat) a + S4000x16.size a ≤ S4000x128.size a)
    (x : (Rect.unit (s := S4000x128) ![0, o] S4000x16.size inb).shape.Idx) :
    bandPay o hs (k1_pay5 x3) (hwPay o hs (k1_pay6 x0 x4 x1 x2)) x
      = (fun j : S4000x128.Idx => weightedOf (R := 4000) x0 x1 x2 x3 x4 (j 0) (j 1))
          ((Rect.unit (s := S4000x128) ![0, o] S4000x16.size inb).emb x) := by
  obtain ⟨r, d, rfl⟩ : ∃ (r : Fin 4000) (d : Fin 16), x = ix2 r d := ⟨x 0, x 1, eq_ix2 x⟩
  have hd : o + d.val < 128 := by omega
  have e0 : (Rect.unit (s := S4000x128) ![0, o] S4000x16.size inb).emb (ix2 r d) 0 = r :=
    Fin.ext (by show 0 + 1 * r.val = r.val; omega)
  have e1 : (Rect.unit (s := S4000x128) ![0, o] S4000x16.size inb).emb (ix2 r d) 1 = (⟨o + d.val, hd⟩ : Fin 128) :=
    Fin.ext (by show o + 1 * d.val = o + d.val; omega)
  show _ = weightedOf (R := 4000) x0 x1 x2 x3 x4 _ _
  rw [e0, e1]
  refine (bandPay_apply o (by omega) hs _ _ r d).trans ?_
  unfold weightedOf k1_pay5
  rw [shapeCast_self, hw_rz x0 x1 x2 x4 h o hh ho hs r 0]
  have hhead : headOf (⟨o + d.val, hd⟩ : Fin 128) = (⟨h, hh⟩ : Fin 8) :=
    Fin.ext (by show (o + d.val) / 16 = h; omega)
  rw [hhead]

/-- The weighted-value block: eight column bands, each the values of one head times that head's weight. -/
theorem weighted_block (x0 x1 x2 x3 : Vec Ideal S4000x128 .f32) (x4 : Vec Ideal S128x128 .f32) :
    out1_6 x0 x1 x2 x3 x4 = fun j => weightedOf (R := 4000) x0 x1 x2 x3 x4 (j 0) (j 1) := by
  unfold out1_6
  simp only [View.ld_unit_zero (S := S4000x128) hz2, View.ld_unit_zero (S := S128x128) hz2]
  funext y
  refine View.canon_apply_of_pieces (Val := Elt Ideal) (S := S4000x128) (e := .f32)
    (fun j : S4000x128.Idx => weightedOf (R := 4000) x0 x1 x2 x3 x4 (j 0) (j 1)) _ ?_ y
    (cover1_6 _ _ _ _ _ _ _ _ y)
  intro p hp
  simp only [List.mem_cons, List.mem_singleton, List.not_mem_nil, or_false] at hp
  rcases hp with rfl | rfl | rfl | rfl | rfl | rfl | rfl | rfl
  · exact band_piece x0 x1 x2 x3 x4 7 112 (by omega) rfl slices_S4000x128_o0_112_S4000x16 inb_S4000x128_S4000x16_0_112
  · exact band_piece x0 x1 x2 x3 x4 6 96 (by omega) rfl slices_S4000x128_o0_96_S4000x16 inb_S4000x128_S4000x16_0_96
  · exact band_piece x0 x1 x2 x3 x4 5 80 (by omega) rfl slices_S4000x128_o0_80_S4000x16 inb_S4000x128_S4000x16_0_80
  · exact band_piece x0 x1 x2 x3 x4 4 64 (by omega) rfl slices_S4000x128_o0_64_S4000x16 inb_S4000x128_S4000x16_0_64
  · exact band_piece x0 x1 x2 x3 x4 3 48 (by omega) rfl slices_S4000x128_o0_48_S4000x16 inb_S4000x128_S4000x16_0_48
  · exact band_piece x0 x1 x2 x3 x4 2 32 (by omega) rfl slices_S4000x128_o0_32_S4000x16 inb_S4000x128_S4000x16_0_32
  · exact band_piece x0 x1 x2 x3 x4 1 16 (by omega) rfl slices_S4000x128_o0_16_S4000x16 inb_S4000x128_S4000x16_0_16
  · exact band_piece x0 x1 x2 x3 x4 0 0 (by omega) rfl slices_S4000x128_o0_0_S4000x16 inb_S4000x128_S4000x16_0_0

end Cert.KernelIdeal.EdgeBlocks

end
-- ==== Proof.EdgeArrays.lean ====
/-
  What the edge region leaves in its three output arrays: block t of each array is the body's block at grid point t,
  the 160 blocks of 4000 rows cover the 640000 edges, and every function involved works row by row.
-/
import proofs.«411189_j26482768347806_1_alg».proof.Proof.Gen.KernelIdeal.Frame
import proofs.«411189_j26482768347806_1_alg».proof.Proof.Spec
import Idealize.ShloMosaic.Lib.Pipeline.Value
import Idealize.ShloMosaic.Lib.ValueIdx
import Idealize.ShloMosaic.PureOps.Ideal.Laws
import proofs.«411189_j26482768347806_1_alg».proof.Proof.EdgeBlocks

set_option maxRecDepth 16384

noncomputable section

namespace Cert.KernelIdeal.EdgeArrays

open Cert.KernelIdeal Cert.KernelIdeal.Gen Cert.EdgeAttn
open Idealize.ShloMosaic Idealize.ShloMosaic.TcCoe Idealize.SL.Sem Idealize.ShloMosaic.ValueIdx

/-! ## The specification's functions work row by row -/

section Rows
variable {R R' : Nat}
  (ef Ks Qd Vs : (⟨2, ![R, 128]⟩ : Shape).Idx → EReal) (ef' Ks' Qd' Vs' : (⟨2, ![R', 128]⟩ : Shape).Idx → EReal)
  (We : SW.Idx → EReal) (r : Fin R) (r' : Fin R')

/-- The matrix product at a row depends on that row only. -/
theorem proj_row (hef : ∀ k, ef (ix2 r k) = ef' (ix2 r' k)) (c : Fin 128) : proj ef We r c = proj ef' We r' c := by
  unfold proj
  exact Finset.sum_congr rfl fun k _ => by rw [hef k]

/-- The score at a row depends on that row of the three arrays only. -/
theorem scoreOf_row (hef : ∀ k, ef (ix2 r k) = ef' (ix2 r' k)) (hK : ∀ k, Ks (ix2 r k) = Ks' (ix2 r' k))
    (hQ : ∀ k, Qd (ix2 r k) = Qd' (ix2 r' k)) (c : Fin 128) :
    scoreOf ef Ks Qd We r c = scoreOf ef' Ks' Qd' We r' c := by
  unfold scoreOf
  rw [hK c, hQ c, proj_row ef ef' We r r' hef c]

/-- A head's weight at a row depends on that row of the three arrays only. -/
theorem headWeightOf_row (hef : ∀ k, ef (ix2 r k) = ef' (ix2 r' k)) (hK : ∀ k, Ks (ix2 r k) = Ks' (ix2 r' k))
    (hQ : ∀ k, Qd (ix2 r k) = Qd' (ix2 r' k)) (h : Fin 8) :
    headWeightOf ef Ks Qd We r h = headWeightOf ef' Ks' Qd' We r' h := by
  unfold headWeightOf
  rw [Finset.sum_congr rfl fun d _ => scoreOf_row ef Ks Qd ef' Ks' Qd' We r r' hef hK hQ (col h d)]

/-- The weighted value at a row depends on that row of the four arrays only. -/
theorem weightedOf_row (hef : ∀ k, ef (ix2 r k) = ef' (ix2 r' k)) (hK : ∀ k, Ks (ix2 r k) = Ks' (ix2 r' k))
    (hQ : ∀ k, Qd (ix2 r k) = Qd' (ix2 r' k)) (hV : ∀ k, Vs (ix2 r k) = Vs' (ix2 r' k)) (c : Fin 128) :
    weightedOf ef Ks Qd Vs We r c = weightedOf ef' Ks' Qd' Vs' We r' c := by
  unfold weightedOf
  rw [hV c, headWeightOf_row ef Ks Qd ef' Ks' Qd' We r r' hef hK hQ (headOf c)]

end Rows

/-! ## The region's blocks -/

variable (V : (c : Dev nD) → (b : Ref sig .tc) → Buf (Elt Ideal) ((c : Thread nD τ).loc b))

/-- The printed index maps, decided over the grid: the seven moving windows sit at block (t, 0), the fixed one at (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem points : cfg1.N = 160 := by decide

/-- Row r of block t is row 4000 t + r of the array. -/
theorem row_lt (t : Fin cfg1.N) (r : Fin 4000) : 4000 * t.val + r.val < 640000 := by
  have h1 : t.val < 160 := points ▸ t.isLt
  have h2 := r.isLt; omega

/-- The edge features' block at point t, read at (r, k). -/
theorem ef_block (c : Dev nD) (t : Fin cfg1.N) (r : Fin 4000) (k : Fin 128) :
    (iblk1 V c 0 t : Vec Ideal S4000x128 .f32) (ix2 r k) = (V c main_arg1 : S640000x128.Idx → EReal) (ix2 ⟨4000 * t.val + r.val, row_lt t r⟩ k) := by
  obtain ⟨e0, e1, -⟩ := block_index t
  show V c main_arg1 (((cfg1.win 0).blk t).view.emb (ix2 r k)) = _
  congr 1
  funext a; apply Fin.ext
  match a with
  | ⟨0, _⟩ => show win1_0.index t (0 : Fin 2) * 4000 + 1 * r.val = 4000 * t.val + r.val; omega
  | ⟨1, _⟩ => show win1_0.index t (1 : Fin 2) * 128 + 1 * k.val = k.val; omega

/-- The source keys' block at point t, read at (r, k). -/
theorem key_block (c : Dev nD) (t : Fin cfg1.N) (r : Fin 4000) (k : Fin 128) :
    (iblk1 V c 1 t : Vec Ideal S4000x128 .f32) (ix2 r k) = (V c main_v1 : S640000x128.Idx → EReal) (ix2 ⟨4000 * t.val + r.val, row_lt t r⟩ k) := by
  obtain ⟨-, -, e0, e1, -⟩ := block_index t
  show V c main_v1 (((cfg1.win 1).blk t).view.emb (ix2 r k)) = _
  congr 1
  funext a; apply Fin.ext
  match a with
  | ⟨0, _⟩ => show win1_1.index t (0 : Fin 2) * 4000 + 1 * r.val = 4000 * t.val + r.val; omega
  | ⟨1, _⟩ => show win1_1.index t (1 : Fin 2) * 128 + 1 * k.val = k.val; omega

/-- The destination queries' block at point t, read at (r, k). -/
theorem query_block (c : Dev nD) (t : Fin cfg1.N) (r : Fin 4000) (k : Fin 128) :
    (iblk1 V c 2 t : Vec Ideal S4000x128 .f32) (ix2 r k) = (V c main_v2 : S640000x128.Idx → EReal) (ix2 ⟨4000 * t.val + r.val, row_lt t r⟩ k) := by
  obtain ⟨-, -, -, -, e0, e1, -⟩ := block_index t
  show V c main_v2 (((cfg1.win 2).blk t).view.emb (ix2 r k)) = _
  congr 1
  funext a; apply Fin.ext
  match a with
  | ⟨0, _⟩ => show win1_2.index t (0 : Fin 2) * 4000 + 1 * r.val = 4000 * t.val + r.val; omega
  | ⟨1, _⟩ => show win1_2.index t (1 : Fin 2) * 128 + 1 * k.val = k.val; omega

/-- The source values' block at point t, read at (r, k). -/
theorem value_block (c : Dev nD) (t : Fin cfg1.N) (r : Fin 4000) (k : Fin 128) :
    (iblk1 V c 3 t : Vec Ideal S4000x128 .f32) (ix2 r k) = (V c main_v3 : S640000x128.Idx → EReal) (ix2 ⟨4000 * t.val + r.val, row_lt t r⟩ k) := by
  obtain ⟨-, -, -, -, -, -, e0, e1, -⟩ := block_index t
  show V c main_v3 (((cfg1.win 3).blk t).view.emb (ix2 r k)) = _
  congr 1
  funext a; apply Fin.ext
  match a with
  | ⟨0, _⟩ => show win1_3.index t (0 : Fin 2) * 4000 + 1 * r.val = 4000 * t.val + r.val; omega
  | ⟨1, _⟩ => show win1_3.index t (1 : Fin 2) * 128 + 1 * k.val = k.val; omega

/-- The edge projection's block is the whole matrix at every point. -/
theorem weight_block (c : Dev nD) (t : Fin cfg1.N) :
    (iblk1 V c 4 t : Vec Ideal S128x128 .f32) = (V c main_arg7 : S128x128.Idx → EReal) := by
  obtain ⟨-, -, -, -, -, -, -, -, e0, e1, -⟩ := block_index t
  funext y
  show V c main_arg7 (((cfg1.win 4).blk t).view.emb y) = V c main_arg7 y
  congr 1
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-! ## The score array -/

/-- The scores of all edges, as an array. -/
abbrev scoreG (c : Dev nD) : S640000x128.Idx → EReal :=
  fun i => scoreOf (R := 640000) (V c main_arg1) (V c main_v1) (V c main_v2) (V c main_arg7) (i 0) (i 1)

/-- What point t writes back to the score array is block t of the scores. -/
theorem score_flushed (c : Dev nD) (t : Fin cfg1.N) :
    (dat1 (F := Ideal) V c).flushed 5 t = ((cfg1.win 5).blk t).view.read (Elt Ideal) (scoreG V c) := by
  show (cfg1.win 5).cut (grid1.coords t) ((dat1 V c).after 5 t) = _
  rw [after1_5, EdgeBlocks.score_block]
  obtain ⟨-, -, -, -, -, -, -, -, -, -, e0, e1, -⟩ := block_index t
  funext j
  have he : ((cfg1.win 5).blk t).view.emb j = ix2 ⟨4000 * t.val + (j 0).val, row_lt t (j 0)⟩ (j 1) := by
    funext a; apply Fin.ext
    match a with
    | ⟨0, _⟩ => show win1_5.index t (0 : Fin 2) * 4000 + 1 * (j 0).val = 4000 * t.val + (j 0).val; omega
    | ⟨1, _⟩ => show win1_5.index t (1 : Fin 2) * 128 + 1 * (j 1).val = (j 1).val; omega
  show scoreOf (R := 4000) (iblk1 V c 0 t) (iblk1 V c 1 t) (iblk1 V c 2 t) (iblk1 V c 4 t) (j 0) (j 1)
    = scoreG V c (((cfg1.win 5).blk t).view.emb j)
  rw [he, weight_block V c t]
  exact scoreOf_row _ _ _ _ _ _ _ _ _ (ef_block V c t (j 0)) (key_block V c t (j 0)) (query_block V c t (j 0)) (j 1)

/-- An index of the score array is in point t's block iff each coordinate is in the block's range on its axis. -/
theorem mem_score_block (t : Fin cfg1.N) (i : S640000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v4_0).slice (win1_5.rect t)).set ↔ _
  rw [View.set_slice_whole, Rect.mem_set_unit]
  exact Iff.rfl

/-- Row e of the score array is in the block of point e / 4000. -/
theorem score_cover (i : S640000x128.Idx) :
    ∃ t : Fin cfg1.N, (cfg1.win 5).flush t = true ∧ i ∈ ((cfg1.win 5).blk t).view.set := by
  have hi0 : (i 0).val < 640000 := (i 0).isLt
  have hi1 : (i 1).val < 128 := (i 1).isLt
  have hq : (i 0).val / 4000 < cfg1.N := by rw [points]; omega
  obtain ⟨-, -, -, -, -, -, -, -, -, -, e0, e1, -⟩ := block_index ⟨(i 0).val / 4000, hq⟩
  refine ⟨⟨(i 0).val / 4000, hq⟩, flush1_5 _, ?_⟩
  rw [mem_score_block]
  intro a
  match a with
  | ⟨0, _⟩ =>
    show win1_5.index ⟨(i 0).val / 4000, hq⟩ (0 : Fin 2) * 4000 ≤ (i 0).val ∧ (i 0).val < win1_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, hq⟩ (1 : Fin 2) * 128 ≤ (i 1).val ∧ (i 1).val < win1_5.index ⟨(i 0).val / 4000, hq⟩ (1 : Fin 2) * 128 + 128
    rw [e1]; omega

/-- The score array after the region. -/
theorem score_array (c : Dev nD) :
    (dat1 (F := Ideal) V c).arrAt 5 cfg1.N
      = (fun i => scoreOf (R := 640000) (V c main_arg1) (V c main_v1) (V c main_v2) (V c main_arg7) (i 0) (i 1) : S640000x128.Idx → EReal) :=
  (dat1 (F := Ideal) V c).arrAt_eq_of_cover 5 (scoreG V c) (fun t _ => score_flushed V c t) score_cover

/-! ## The weighted-value array -/

/-- The weighted values of all edges, as an array. -/
abbrev weightedG (c : Dev nD) : S640000x128.Idx → EReal :=
  fun i => weightedOf (R := 640000) (V c main_arg1) (V c main_v1) (V c main_v2) (V c main_v3) (V c main_arg7) (i 0) (i 1)

/-- What point t writes back to the weighted-value array is block t of the weighted values. -/
theorem weighted_flushed (c : Dev nD) (t : Fin cfg1.N) :
    (dat1 (F := Ideal) V c).flushed 6 t = ((cfg1.win 6).blk t).view.read (Elt Ideal) (weightedG V c) := by
  show (cfg1.win 6).cut (grid1.coords t) ((dat1 V c).after 6 t) = _
  rw [after1_6, EdgeBlocks.weighted_block]
  obtain ⟨-, -, -, -, -, -, -, -, -, -, -, -, e0, e1, -⟩ := block_index t
  funext j
  have he : ((cfg1.win 6).blk t).view.emb j = ix2 ⟨4000 * t.val + (j 0).val, row_lt t (j 0)⟩ (j 1) := by
    funext a; apply Fin.ext
    match a with
    | ⟨0, _⟩ => show win1_6.index t (0 : Fin 2) * 4000 + 1 * (j 0).val = 4000 * t.val + (j 0).val; omega
    | ⟨1, _⟩ => show win1_6.index t (1 : Fin 2) * 128 + 1 * (j 1).val = (j 1).val; omega
  show weightedOf (R := 4000) (iblk1 V c 0 t) (iblk1 V c 1 t) (iblk1 V c 2 t) (iblk1 V c 3 t) (iblk1 V c 4 t) (j 0) (j 1)
    = weightedG V c (((cfg1.win 6).blk t).view.emb j)
  rw [he, weight_block V c t]
  exact weightedOf_row _ _ _ _ _ _ _ _ _ _ _ (ef_block V c t (j 0)) (key_block V c t (j 0)) (query_block V c t (j 0))
    (value_block V c t (j 0)) (j 1)

/-- An index of the weighted-value array is in point t's block iff each coordinate is in the block's range on its axis. -/
theorem mem_weighted_block (t : Fin cfg1.N) (i : S640000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v4_1).slice (win1_6.rect t)).set ↔ _
  rw [View.set_slice_whole, Rect.mem_set_unit]
  exact Iff.rfl

/-- Row e of the weighted-value array is in the block of point e / 4000. -/
theorem weighted_cover (i : S640000x128.Idx) :
    ∃ t : Fin cfg1.N, (cfg1.win 6).flush t = true ∧ i ∈ ((cfg1.win 6).blk t).view.set := by
  have hi0 : (i 0).val < 640000 := (i 0).isLt
  have hi1 : (i 1).val < 128 := (i 1).isLt
  have hq : (i 0).val / 4000 < cfg1.N := by rw [points]; omega
  obtain ⟨-, -, -, -, -, -, -, -, -, -, -, -, e0, e1, -⟩ := block_index ⟨(i 0).val / 4000, hq⟩
  refine ⟨⟨(i 0).val / 4000, hq⟩, flush1_6 _, ?_⟩
  rw [mem_weighted_block]
  intro a
  match a with
  | ⟨0, _⟩ =>
    show win1_6.index ⟨(i 0).val / 4000, hq⟩ (0 : Fin 2) * 4000 ≤ (i 0).val ∧ (i 0).val < win1_6.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hq⟩ (1 : Fin 2) * 128 ≤ (i 1).val ∧ (i 1).val < win1_6.index ⟨(i 0).val / 4000, hq⟩ (1 : Fin 2) * 128 + 128
    rw [e1]; omega

/-- The weighted-value array after the region. -/
theorem weighted_array (c : Dev nD) :
    (dat1 (F := Ideal) V c).arrAt 6 cfg1.N
      = (fun i => weightedOf (R := 640000) (V c main_arg1) (V c main_v1) (V c main_v2) (V c main_v3) (V c main_arg7) (i 0) (i 1) : S640000x128.Idx → EReal) :=
  (dat1 (F := Ideal) V c).arrAt_eq_of_cover 6 (weightedG V c) (fun t _ => weighted_flushed V c t) weighted_cover

/-! ## The head-weight array -/

/-- The head weights of all edges, as an array. -/
abbrev headWeightG (c : Dev nD) : S640000x8.Idx → EReal :=
  fun i => headWeightOf (R := 640000) (V c main_arg1) (V c main_v1) (V c main_v2) (V c main_arg7) (i 0) (i 1)

/-- What point t writes back to the head-weight array is block t of the head weights. -/
theorem headWeight_flushed (c : Dev nD) (t : Fin cfg1.N) :
    (dat1 (F := Ideal) V c).flushed 7 t = ((cfg1.win 7).blk t).view.read (Elt Ideal) (headWeightG V c) := by
  show (cfg1.win 7).cut (grid1.coords t) ((dat1 V c).after 7 t) = _
  rw [after1_7, EdgeBlocks.headWeight_block]
  obtain ⟨-, -, -, -, -, -, -, -, -, -, -, -, -, -, e0, e1⟩ := block_index t
  funext j
  have he : ((cfg1.win 7).blk t).view.emb j = ix2 ⟨4000 * t.val + (j 0).val, row_lt t (j 0)⟩ (j 1) := by
    funext a; apply Fin.ext
    match a with
    | ⟨0, _⟩ => show win1_7.index t (0 : Fin 2) * 4000 + 1 * (j 0).val = 4000 * t.val + (j 0).val; omega
    | ⟨1, _⟩ => show win1_7.index t (1 : Fin 2) * 8 + 1 * (j 1).val = (j 1).val; omega
  show headWeightOf (R := 4000) (iblk1 V c 0 t) (iblk1 V c 1 t) (iblk1 V c 2 t) (iblk1 V c 4 t) (j 0) (j 1)
    = headWeightG V c (((cfg1.win 7).blk t).view.emb j)
  rw [he, weight_block V c t]
  exact headWeightOf_row _ _ _ _ _ _ _ _ _ (ef_block V c t (j 0)) (key_block V c t (j 0)) (query_block V c t (j 0)) (j 1)

/-- An index of the head-weight array is in point t's block iff each coordinate is in the block's range on its axis. -/
theorem mem_headWeight_block (t : Fin cfg1.N) (i : S640000x8.Idx) :
    i ∈ ((cfg1.win 7).blk t).view.set ↔ ∀ a : Fin 2, win1_7.index t a * S4000x8.size a ≤ (i a).val ∧ (i a).val < win1_7.index t a * S4000x8.size a + S4000x8.size a := by
  show i ∈ ((View.whole main_v4_2).slice (win1_7.rect t)).set ↔ _
  rw [View.set_slice_whole, Rect.mem_set_unit]
  exact Iff.rfl

/-- Row e of the head-weight array is in the block of point e / 4000. -/
theorem headWeight_cover (i : S640000x8.Idx) :
    ∃ t : Fin cfg1.N, (cfg1.win 7).flush t = true ∧ i ∈ ((cfg1.win 7).blk t).view.set := by
  have hi0 : (i 0).val < 640000 := (i 0).isLt
  have hi1 : (i 1).val < 8 := (i 1).isLt
  have hq : (i 0).val / 4000 < cfg1.N := by rw [points]; omega
  obtain ⟨-, -, -, -, -, -, -, -, -, -, -, -, -, -, e0, e1⟩ := block_index ⟨(i 0).val / 4000, hq⟩
  refine ⟨⟨(i 0).val / 4000, hq⟩, flush1_7 _, ?_⟩
  rw [mem_headWeight_block]
  intro a
  match a with
  | ⟨0, _⟩ =>
    show win1_7.index ⟨(i 0).val / 4000, hq⟩ (0 : Fin 2) * 4000 ≤ (i 0).val ∧ (i 0).val < win1_7.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, hq⟩ (1 : Fin 2) * 8 ≤ (i 1).val ∧ (i 1).val < win1_7.index ⟨(i 0).val / 4000, hq⟩ (1 : Fin 2) * 8 + 8
    rw [e1]; omega

/-- The head-weight array after the region. -/
theorem headWeight_array (c : Dev nD) :
    (dat1 (F := Ideal) V c).arrAt 7 cfg1.N
      = (fun i => headWeightOf (R := 640000) (V c main_arg1) (V c main_v1) (V c main_v2) (V c main_arg7) (i 0) (i 1) : S640000x8.Idx → EReal) :=
  (dat1 (F := Ideal) V c).arrAt_eq_of_cover 7 (headWeightG V c) (fun t _ => headWeight_flushed V c t) headWeight_cover

end Cert.KernelIdeal.EdgeArrays

end
-- ==== Proof.HostTail.lean ====
/-
  The aggregation after the edge region. The three edge arrays are laid out as [edges, heads, lanes]; the weighted
  values and the head weights are summed into their destination nodes, and each node's sum of weighted values is
  divided by its sum of weights plus a small constant.
-/
import proofs.«411189_j26482768347806_1_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- Per destination node: the sum of the weighted values over the sum of the head weights plus the constant. -/
def aggregate (dst : IVec S640000 32) (wv : FVec F S640000x8x16 .f32) (hw : FVec F S640000x8x1 .f32) :
    FVec F S10000x8x16 .f32 :=
  Host.divf
    (Host.scatterAdd scatter_S10000x8x16_S640000x1_S640000x8x16_12_0_0_1
      (broadcastInDim (s := S_) (α := F .f32) S10000x8x16 ![] bcast_S_S10000x8x16 (constant (F := F) S_ .f32 0x00000000#32))
      (broadcastInDim (s := S640000) (α := BitVec 32) S640000x1 ![0] bcast_S640000_S640000x1_0 dst) wv)
    (broadcastInDim (s := S10000x8x1) (α := F .f32) S10000x8x16 ![0, 1, 2] bcast_S10000x8x1_S10000x8x16_0_1_2
      (addf
        (Host.scatterAdd scatter_S10000x8x1_S640000x1_S640000x8x1_12_0_0_1
          (broadcastInDim (s := S_) (α := F .f32) S10000x8x1 ![] bcast_S_S10000x8x1 (constant (F := F) S_ .f32 0x00000000#32))
          (broadcastInDim (s := S640000) (α := BitVec 32) S640000x1 ![0] bcast_S640000_S640000x1_0 dst) hw)
        (broadcastInDim (s := S_) (α := F .f32) S10000x8x1 ![] bcast_S_S10000x8x1 (constant (F := F) S_ .f32 0x358637BD#32))))

/-- The first result of the last stretch: the score array laid out as [edges, heads, lanes]. -/
theorem after_tail_scores (X : Valuation τ sig (Elt F)) :
    StableHlo.after hostOps2 X (Proc.devRef .tc main_v5)
      = (shapeCast S640000x8x16 (X (Proc.devRef .tc main_v4_0)) shapeCasts_S640000x128_S640000x8x16 : FVec F S640000x8x16 .f32) := by
  after_results_simp
  rfl

/-- The second result of the last stretch: the aggregation of the other two edge arrays. -/
theorem after_tail_nodes (X : Valuation τ sig (Elt F)) :
    StableHlo.after hostOps2 X (Proc.devRef .tc main_v17)
      = aggregate (X (Proc.devRef .tc main_arg3))
          (shapeCast S640000x8x16 (X (Proc.devRef .tc main_v4_1)) shapeCasts_S640000x128_S640000x8x16 : FVec F S640000x8x16 .f32)
          (shapeCast S640000x8x1 (X (Proc.devRef .tc main_v4_2)) shapeCasts_S640000x8_S640000x8x1 : FVec F S640000x8x1 .f32) := by
  after_results_simp
  rfl

end Cert.KernelIdeal.HostValue

end
-- ==== Proof.KernelValue.lean ====
/-
  The kernel program's two results as functions of its arguments. The last stretch lays the edge region's arrays out
  as [edges, heads, lanes] and aggregates two of them; the edge region's arrays are the row-by-row functions of what it
  found at its entry; what it found there are the edge arguments and the rows of the node region's three projections
  at the sources and destinations. When every node number is a row of the node table this is the specification.
-/
import proofs.«411189_j26482768347806_1_alg».proof.Proof.Boundaries
import proofs.«411189_j26482768347806_1_alg».proof.Proof.TakeRows
import proofs.«411189_j26482768347806_1_alg».proof.Proof.NodeProj
import proofs.«411189_j26482768347806_1_alg».proof.Proof.EdgeArrays
import proofs.«411189_j26482768347806_1_alg».proof.Proof.HostTail

set_option maxRecDepth 16384

noncomputable section

namespace Cert.KernelIdeal.KernelValue

open Cert.KernelIdeal Cert.KernelIdeal.Gen Cert.KernelIdeal.HostValue Cert.EdgeAttn
open Idealize.ShloMosaic Idealize.ShloMosaic.TcCoe Idealize.SL.Sem Idealize.ShloMosaic.ValueIdx Idealize.ShloMosaic.StableHlo

/-- Laying a [640000, 128] array out as [640000, 8, 16]: entry (e, h, d) is entry (e, 16 h + d). -/
theorem unflatten_apply (y : S640000x128.Idx → EReal) (e : Fin 640000) (h : Fin 8) (d : Fin 16) :
    shapeCast S640000x8x16 y shapeCasts_S640000x128_S640000x8x16 (ix3 e h d) = y (ix2 e (col h d)) :=
  shapeCast_apply y shapeCasts_S640000x128_S640000x8x16 (ix3 e h d) (ix2 e (col h d))
    (by rewrite [Shape.rowMajor_val_two, Shape.rowMajor_val_three]
        show e.val * 128 + (16 * h.val + d.val) = (e.val * 8 + h.val) * 16 + d.val
        omega)

/-- Laying a [640000, 8] array out as [640000, 8, 1]: entry (e, h, 0) is entry (e, h). -/
theorem addLane_apply (y : S640000x8.Idx → EReal) (e : Fin 640000) (h : Fin 8) (z : Fin 1) :
    shapeCast S640000x8x1 y shapeCasts_S640000x8_S640000x8x1 (ix3 e h z) = y (ix2 e h) :=
  shapeCast_apply y shapeCasts_S640000x8_S640000x8x1 (ix3 e h z) (ix2 e h)
    (by rewrite [Shape.rowMajor_val_two, Shape.rowMajor_val_three]
        show e.val * 8 + h.val = (e.val * 8 + h.val) * 1 + z.val
        have := z.isLt
        omega)

variable (m : (ℓ : Loc nD τ sig) → Buf (Elt Ideal) ℓ) (ρ : Dev nD → PrngReg)

/-- The arguments, by the names the specification uses. -/
abbrev nodeFeats (c : Dev nD) : SNode.Idx → EReal := m ((c.tc : Thread nD τ).loc main_arg0)
abbrev edgeFeats (c : Dev nD) : SEdge.Idx → EReal := m ((c.tc : Thread nD τ).loc main_arg1)
abbrev sources (c : Dev nD) : IVec SNum 32 := m ((c.tc : Thread nD τ).loc main_arg2)
abbrev destinations (c : Dev nD) : IVec SNum 32 := m ((c.tc : Thread nD τ).loc main_arg3)
abbrev wQ (c : Dev nD) : SW.Idx → EReal := m ((c.tc : Thread nD τ).loc main_arg4)
abbrev wK (c : Dev nD) : SW.Idx → EReal := m ((c.tc : Thread nD τ).loc main_arg5)
abbrev wV (c : Dev nD) : SW.Idx → EReal := m ((c.tc : Thread nD τ).loc main_arg6)
abbrev wE (c : Dev nD) : SW.Idx → EReal := m ((c.tc : Thread nD τ).loc main_arg7)

/-- Every source and destination is a row of the node table. -/
def InRange (c : Dev nD) : Prop :=
  (∀ e : Fin 640000, 0 ≤ (sources m c (ix1 e)).toInt ∧ (sources m c (ix1 e)).toInt < 10000)
    ∧ (∀ e : Fin 640000, 0 ≤ (destinations m c (ix1 e)).toInt ∧ (destinations m c (ix1 e)).toInt < 10000)

/-- The key rows the edge region finds. -/
theorem keys_found (c : Dev nD) (hr : InRange m c) :
    V4 m ρ c main_v1 = keyRows (nodeFeats m c) (sources m c) (wK m c) := by
  refine (Boundaries.keys_at_entry m ρ c).trans ?_
  rw [NodeValue.keys (V0 m ρ) c]
  exact takeRows_eq _ _ hr.1

/-- The query rows the edge region finds. -/
theorem queries_found (c : Dev nD) (hr : InRange m c) :
    V4 m ρ c main_v2 = queryRows (nodeFeats m c) (destinations m c) (wQ m c) := by
  refine (Boundaries.queries_at_entry m ρ c).trans ?_
  rw [NodeValue.queries (V0 m ρ) c]
  exact takeRows_eq _ _ hr.2

/-- The value rows the edge region finds. -/
theorem values_found (c : Dev nD) (hr : InRange m c) :
    V4 m ρ c main_v3 = valueRows (nodeFeats m c) (sources m c) (wV m c) := by
  refine (Boundaries.values_at_entry m ρ c).trans ?_
  rw [NodeValue.values (V0 m ρ) c]
  exact takeRows_eq _ _ hr.1

/-- The first result of the edge region, as the specification's score function of the arguments. -/
theorem score_rows (c : Dev nD) (hr : InRange m c) :
    W5 m ρ c (Proc.devRef .tc main_v4_0)
      = (fun i => scoreOf (R := 640000) (edgeFeats m c) (keyRows (nodeFeats m c) (sources m c) (wK m c))
          (queryRows (nodeFeats m c) (destinations m c) (wQ m c)) (wE m c) (i 0) (i 1) : S640000x128.Idx → EReal) := by
  refine (W5_arr m ρ c 5).trans ?_
  rw [EdgeArrays.score_array (V4 m ρ) c, keys_found m ρ c hr, queries_found m ρ c hr]
  rw [show V4 m ρ c main_arg1 = edgeFeats m c from Boundaries.edge_features_at_entry m ρ c,
    show V4 m ρ c main_arg7 = wE m c from Boundaries.edge_weights_at_entry m ρ c]

/-- The second result of the edge region. -/
theorem weighted_rows (c : Dev nD) (hr : InRange m c) :
    W5 m ρ c (Proc.devRef .tc main_v4_1)
      = (fun i => weightedOf (R := 640000) (edgeFeats m c) (keyRows (nodeFeats m c) (sources m c) (wK m c))
          (queryRows (nodeFeats m c) (destinations m c) (wQ m c)) (valueRows (nodeFeats m c) (sources m c) (wV m c))
          (wE m c) (i 0) (i 1) : S640000x128.Idx → EReal) := by
  refine (W5_arr m ρ c 6).trans ?_
  rw [EdgeArrays.weighted_array (V4 m ρ) c, keys_found m ρ c hr, queries_found m ρ c hr, values_found m ρ c hr]
  rw [show V4 m ρ c main_arg1 = edgeFeats m c from Boundaries.edge_features_at_entry m ρ c,
    show V4 m ρ c main_arg7 = wE m c from Boundaries.edge_weights_at_entry m ρ c]

/-- The third result of the edge region. -/
theorem headWeight_rows (c : Dev nD) (hr : InRange m c) :
    W5 m ρ c (Proc.devRef .tc main_v4_2)
      = (fun i => headWeightOf (R := 640000) (edgeFeats m c) (keyRows (nodeFeats m c) (sources m c) (wK m c))
          (queryRows (nodeFeats m c) (destinations m c) (wQ m c)) (wE m c) (i 0) (i 1) : S640000x8.Idx → EReal) := by
  refine (W5_arr m ρ c 7).trans ?_
  rw [EdgeArrays.headWeight_array (V4 m ρ) c, keys_found m ρ c hr, queries_found m ρ c hr]
  rw [show V4 m ρ c main_arg1 = edgeFeats m c from Boundaries.edge_features_at_entry m ρ c,
    show V4 m ρ c main_arg7 = wE m c from Boundaries.edge_weights_at_entry m ρ c]

/-- THE SCORE RESULT of the program: the specification's score array of the arguments. -/
theorem scores_result (c : Dev nD) (hr : InRange m c) :
    W6 m ρ c (Proc.devRef .tc main_v5)
      = scoreArr (nodeFeats m c) (edgeFeats m c) (sources m c) (destinations m c) (wQ m c) (wK m c) (wE m c) := by
  refine (after_tail_scores (W5 m ρ c)).trans ?_
  rw [score_rows m ρ c hr]
  funext i
  obtain ⟨e, h, d, rfl⟩ : ∃ (e : Fin 640000) (h : Fin 8) (d : Fin 16), i = ix3 e h d := ⟨i 0, i 1, i 2, eq_ix3 i⟩
  exact unflatten_apply _ e h d

/-- THE NODE RESULT of the program: the aggregation of the specification's weighted values and head weights. -/
theorem nodes_result (c : Dev nD) (hr : InRange m c) :
    W6 m ρ c (Proc.devRef .tc main_v17)
      = aggregate (F := Ideal) (destinations m c)
          (weightedArr (nodeFeats m c) (edgeFeats m c) (sources m c) (destinations m c) (wQ m c) (wK m c) (wV m c) (wE m c))
          (headWeightArr (nodeFeats m c) (edgeFeats m c) (sources m c) (destinations m c) (wQ m c) (wK m c) (wE m c)) := by
  refine (after_tail_nodes (W5 m ρ c)).trans ?_
  rw [weighted_rows m ρ c hr, headWeight_rows m ρ c hr, Boundaries.destinations_at_exit m ρ c]
  congr 1
  · funext i
    obtain ⟨e, h, d, rfl⟩ : ∃ (e : Fin 640000) (h : Fin 8) (d : Fin 16), i = ix3 e h d := ⟨i 0, i 1, i 2, eq_ix3 i⟩
    exact unflatten_apply _ e h d
  · funext i
    obtain ⟨e, h, z, rfl⟩ : ∃ (e : Fin 640000) (h : Fin 8) (z : Fin 1), i = ix3 e h z := ⟨i 0, i 1, i 2, eq_ix3 i⟩
    exact addLane_apply _ e h z

end Cert.KernelIdeal.KernelValue

end
-- ==== Proof.LibGatherRows3.lean ====
/-
  Rows of a table of matrices: the table[idx] of an N x H x D table at a column of R start indices is, at (r, h, d),
  the table's entry (idx r, h, d) with the start index read signed and clamped into the table's rows.
-/
import Idealize.ShloMosaic.PureOps
import Idealize.ShloMosaic.Lib.ValueIdx

noncomputable section

namespace Cert.LibGatherRows3

open Idealize.ShloMosaic Idealize.ShloMosaic.ValueIdx

variable {α : Type}

/-- Axes 1 and 2 of a rank-3 operand are not among the axes [0]. -/
private theorem one_notMem_zero : (1 : Fin 3) ∉ ([0] : List (Fin 3)) := by decide
private theorem two_notMem_zero : (2 : Fin 3) ∉ ([0] : List (Fin 3)) := by decide

/-- The dimension numbers of table[idx]: operand N x H x D, start indices R x 1, result R x H x D; the row axis is
    collapsed and indexed, the two matrix axes are the offset axes, whole matrices are sliced. -/
abbrev rowTakeDims3 (N H D R : Nat)
    (wf : GatherDims.WF ⟨3, ![N, H, D]⟩ ⟨2, ![R, 1]⟩ ⟨3, ![R, H, D]⟩ [1, 2] [0] [] [0] [] 1 ![1, H, D]) :
    GatherDims ⟨3, ![N, H, D]⟩ ⟨2, ![R, 1]⟩ ⟨3, ![R, H, D]⟩ where
  offsetDims := [1, 2]
  collapsedSliceDims := [0]
  operandBatchingDims := []
  startIndicesBatchingDims := []
  startIndexMap := [0]
  indexVectorDim := 1
  sliceSizes := ![1, H, D]
  wf := wf

/-- The gathered matrices read at (r, h, d): the table at the clamped start index of row r, entry (h, d). -/
theorem gather_rows3_apply {N H D R w : Nat} (hN : 0 < N)
    (wf : GatherDims.WF ⟨3, ![N, H, D]⟩ ⟨2, ![R, 1]⟩ ⟨3, ![R, H, D]⟩ [1, 2] [0] [] [0] [] 1 ![1, H, D])
    (x : (⟨3, ![N, H, D]⟩ : Shape).Idx → α) (idx : IVec ⟨2, ![R, 1]⟩ w) (r : Fin R) (h : Fin H) (d : Fin D) :
    Host.gather (rowTakeDims3 N H D R wf) x idx (ix3 r h d)
      = x (ix3 (⟨min (idx (ix2 r (0 : Fin 1))).toInt.toNat (N - 1), by omega⟩ : Fin N) h d) := by
  -- the gather reads the table at its operand index, which on each axis is
  -- (clamped start) + (batching coordinate) + (offset coordinate); the two operand indices agree axis by axis as numbers
  unfold Host.gather
  congr 1
  funext a
  refine Fin.ext ?_
  match a with
  | ⟨0, _⟩ =>
    -- axis 0, the table's rows: collapsed and indexed. There are no batching axes and a collapsed axis has no offset,
    -- so the start alone is left: the start index of result row r, clamped to N - 1 (rows minus the slice size 1)
    show (rowTakeDims3 N H D R wf).start (ix3 r h d) idx 0 + (rowTakeDims3 N H D R wf).batchCoord (ix3 r h d) 0
      + (rowTakeDims3 N H D R wf).offCoord (ix3 r h d) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 3) ∈ (rowTakeDims3 N H D R wf).startIndexMap from List.mem_singleton.mpr rfl)]
    -- the start index sits at (r, 0): r from the result's only batch axis 0, component 0 on the index vector's axis 1
    have hsi : (rowTakeDims3 N H D R wf).siIdx (ix3 r h d)
        ⟨List.idxOf (0 : Fin 3) (rowTakeDims3 N H D R wf).startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the matrices' rows: an offset axis. Not in the start index map, so the start is 0; no batching axes;
    -- it is the first kept operand axis, paired with the result's first offset axis 1, whose coordinate is h
    show (rowTakeDims3 N H D R wf).start (ix3 r h d) idx 1 + (rowTakeDims3 N H D R wf).batchCoord (ix3 r h d) 1
      + (rowTakeDims3 N H D R wf).offCoord (ix3 r h d) 1 = h.val
    rw [GatherDims.batchCoord_eq_zero _ _ _ List.not_mem_nil]
    unfold GatherDims.start
    rw [dif_neg (show (1 : Fin 3) ∉ (rowTakeDims3 N H D R wf).startIndexMap from one_notMem_zero)]
    unfold GatherDims.offCoord
    rw [dif_pos (show (1 : Fin 3) ∈ (rowTakeDims3 N H D R wf).sKept from
      (GatherDims.mem_sKept _ _).mpr ⟨one_notMem_zero, List.not_mem_nil⟩)]
    simp only [Nat.zero_add]
    rfl
  | ⟨2, _⟩ =>
    -- axis 2, the matrices' columns: the other offset axis, again with start 0 and no batching coordinate;
    -- it is the second kept operand axis, paired with the result's second offset axis 2, whose coordinate is d
    show (rowTakeDims3 N H D R wf).start (ix3 r h d) idx 2 + (rowTakeDims3 N H D R wf).batchCoord (ix3 r h d) 2
      + (rowTakeDims3 N H D R wf).offCoord (ix3 r h d) 2 = d.val
    rw [GatherDims.batchCoord_eq_zero _ _ _ List.not_mem_nil]
    unfold GatherDims.start
    rw [dif_neg (show (2 : Fin 3) ∉ (rowTakeDims3 N H D R wf).startIndexMap from two_notMem_zero)]
    unfold GatherDims.offCoord
    rw [dif_pos (show (2 : Fin 3) ∈ (rowTakeDims3 N H D R wf).sKept from
      (GatherDims.mem_sKept _ _).mpr ⟨two_notMem_zero, List.not_mem_nil⟩)]
    simp only [Nat.zero_add]
    rfl

end Cert.LibGatherRows3

end
-- ==== Proof.RefValue.lean ====
/-
  The reference's three edge arrays, read index by index: its scores, weighted values and head weights are the
  specification's, once every node number is a row of the node table.
-/
import proofs.«411189_j26482768347806_1_alg».proof.Proof.Gen.ReferenceIdeal.Read
import proofs.«411189_j26482768347806_1_alg».proof.Proof.Spec
import proofs.«411189_j26482768347806_1_alg».proof.Proof.LibGatherRows3

noncomputable section

namespace Cert.ReferenceIdeal.RefValue

open Cert.ReferenceIdeal Cert.ReferenceIdeal.Gen Cert.ReferenceIdeal.Read Cert.EdgeAttn
open Idealize.ShloMosaic Idealize.ShloMosaic.TcCoe Idealize.SL.Sem Idealize.ShloMosaic.ValueIdx

open scoped BigOperators

/-! ### Node numbers -/

/-- The wrap of negative node numbers (add 10000 when below zero) leaves a nonnegative number alone. -/
private theorem wrap_eq (w : BitVec 32) (hw : 0 ≤ w.toInt) :
    Scalar.select (IntOp.cmpi .slt w 0#32) (IntOp.addi w 10000#32) w = w := by
  have hlt : w.slt 0#32 = false := by
    unfold BitVec.slt
    exact decide_eq_false (by rw [BitVec.toInt_zero]; omega)
  have hc : IntOp.cmpi .slt w 0#32 = 0#1 := by
    unfold IntOp.cmpi
    show BitVec.ofBool (w.slt 0#32) = 0#1
    rw [hlt]; rfl
  rw [hc, select_zero]

/-- The start index of edge e for the gathers at the sources: the source number itself. -/
private theorem start_src (x2 : IVec S640000 32) (e : Fin 640000) (hw : 0 ≤ (x2 (ix1 e)).toInt) :
    val_main_v13 (F := Ideal) x2 (ix2 e (0 : Fin 1)) = x2 (ix1 e) := by
  have hi : idx_main_v13 (ix2 e (0 : Fin 1)) = ix1 e := funext fun a => by match a with | ⟨0, _⟩ => rfl
  rw [val_main_v13_apply, hi, val_main_v12_apply, val_main_v9_apply, val_main_v11_apply, val_main_v8_apply,
    val_main_c_apply, val_main_v10_apply, val_main_c_0_apply]
  exact wrap_eq _ hw

/-- The start index of edge e for the gather at the destinations: the destination number itself. -/
private theorem start_dst (x3 : IVec S640000 32) (e : Fin 640000) (hw : 0 ≤ (x3 (ix1 e)).toInt) :
    val_main_v20 (F := Ideal) x3 (ix2 e (0 : Fin 1)) = x3 (ix1 e) := by
  have hi : idx_main_v20 (ix2 e (0 : Fin 1)) = ix1 e := funext fun a => by match a with | ⟨0, _⟩ => rfl
  rw [val_main_v20_apply, hi, val_main_v19_apply, val_main_v16_apply, val_main_v18_apply, val_main_v15_apply,
    val_main_c_1_apply, val_main_v17_apply, val_main_c_2_apply]
  exact wrap_eq _ hw

/-- The start index of edge e for the second gather at the sources: again the source number. -/
private theorem start_src' (x2 : IVec S640000 32) (e : Fin 640000) (hw : 0 ≤ (x2 (ix1 e)).toInt) :
    val_main_v36 (F := Ideal) x2 (ix2 e (0 : Fin 1)) = x2 (ix1 e) := by
  have hi : idx_main_v36 (ix2 e (0 : Fin 1)) = ix1 e := funext fun a => by match a with | ⟨0, _⟩ => rfl
  rw [val_main_v36_apply, hi, val_main_v35_apply, val_main_v32_apply, val_main_v34_apply, val_main_v31_apply,
    val_main_c_8_apply, val_main_v33_apply, val_main_c_9_apply]
  exact wrap_eq _ hw

/-! ### The projections, reshaped to [rows, 8, 16] -/

/-- Entry (n, h, d) of a [rows, 8, 16] reshape is entry (n, 16 h + d) of the [rows, 128] array. -/
private theorem flat_row {R : Nat} (n : Fin R) (h : Fin 8) (d : Fin 16) :
    ((n.val * 8 + h.val) * 16 + d.val) / 128 = n.val ∧ ((n.val * 8 + h.val) * 16 + d.val) % 128 = 16 * h.val + d.val := by
  have := h.isLt; have := d.isLt
  constructor <;> omega

/-- The key table x WK at (n, h, d). -/
private theorem keyTable_apply (x0 : FVec Ideal S10000x128 .f32) (W : FVec Ideal S128x128 .f32)
    (n : Fin 10000) (h : Fin 8) (d : Fin 16) :
    val_main_v3 (F := Ideal) x0 W (ix3 n h d) = projArr x0 W (ix2 n (col h d)) := by
  have hi : idx_main_v3 (ix3 n h d) = ix2 n (col h d) := funext fun a => Fin.ext (by
    match a with
    | ⟨0, _⟩ => exact (flat_row n h d).1
    | ⟨1, _⟩ => exact (flat_row n h d).2)
  rw [val_main_v3_apply, hi, val_main_v2_apply]
  unfold projArr proj
  refine Finset.sum_congr rfl fun k _ => ?_
  have el : lidx_main_v2 (ix2 n (col h d)) k = ix2 n k := funext fun a => by
    match a with | ⟨0, _⟩ => rfl | ⟨1, _⟩ => rfl
  have er : ridx_main_v2 (ix2 n (col h d)) k = ix2 k (col h d) := funext fun a => by
    match a with | ⟨0, _⟩ => rfl | ⟨1, _⟩ => rfl
  rw [el, er]

/-- The query table x WQ at (n, h, d). -/
private theorem queryTable_apply (x0 : FVec Ideal S10000x128 .f32) (W : FVec Ideal S128x128 .f32)
    (n : Fin 10000) (h : Fin 8) (d : Fin 16) :
    val_main_v1 (F := Ideal) x0 W (ix3 n h d) = projArr x0 W (ix2 n (col h d)) := by
  have hi : idx_main_v1 (ix3 n h d) = ix2 n (col h d) := funext fun a => Fin.ext (by
    match a with
    | ⟨0, _⟩ => exact (flat_row n h d).1
    | ⟨1, _⟩ => exact (flat_row n h d).2)
  rw [val_main_v1_apply, hi, val_main_v0_apply]
  unfold projArr proj
  refine Finset.sum_congr rfl fun k _ => ?_
  have el : lidx_main_v0 (ix2 n (col h d)) k = ix2 n k := funext fun a => by
    match a with | ⟨0, _⟩ => rfl | ⟨1, _⟩ => rfl
  have er : ridx_main_v0 (ix2 n (col h d)) k = ix2 k (col h d) := funext fun a => by
    match a with | ⟨0, _⟩ => rfl | ⟨1, _⟩ => rfl
  rw [el, er]

/-- The value table x WV at (n, h, d). -/
private theorem valueTable_apply (x0 : FVec Ideal S10000x128 .f32) (W : FVec Ideal S128x128 .f32)
    (n : Fin 10000) (h : Fin 8) (d : Fin 16) :
    val_main_v5 (F := Ideal) x0 W (ix3 n h d) = projArr x0 W (ix2 n (col h d)) := by
  have hi : idx_main_v5 (ix3 n h d) = ix2 n (col h d) := funext fun a => Fin.ext (by
    match a with
    | ⟨0, _⟩ => exact (flat_row n h d).1
    | ⟨1, _⟩ => exact (flat_row n h d).2)
  rw [val_main_v5_apply, hi, val_main_v4_apply]
  unfold projArr proj
  refine Finset.sum_congr rfl fun k _ => ?_
  have el : lidx_main_v4 (ix2 n (col h d)) k = ix2 n k := funext fun a => by
    match a with | ⟨0, _⟩ => rfl | ⟨1, _⟩ => rfl
  have er : ridx_main_v4 (ix2 n (col h d)) k = ix2 k (col h d) := funext fun a => by
    match a with | ⟨0, _⟩ => rfl | ⟨1, _⟩ => rfl
  rw [el, er]

/-- The edge projection ef We at (e, h, d). -/
private theorem edgeProj_apply (x1 : FVec Ideal S640000x128 .f32) (W : FVec Ideal S128x128 .f32)
    (e : Fin 640000) (h : Fin 8) (d : Fin 16) :
    val_main_v7 (F := Ideal) x1 W (ix3 e h d) = proj x1 W e (col h d) := by
  have hi : idx_main_v7 (ix3 e h d) = ix2 e (col h d) := funext fun a => Fin.ext (by
    match a with
    | ⟨0, _⟩ => exact (flat_row e h d).1
    | ⟨1, _⟩ => exact (flat_row e h d).2)
  rw [val_main_v7_apply, hi, val_main_v6_apply]
  unfold proj
  refine Finset.sum_congr rfl fun k _ => ?_
  have el : lidx_main_v6 (ix2 e (col h d)) k = ix2 e k := funext fun a => by
    match a with | ⟨0, _⟩ => rfl | ⟨1, _⟩ => rfl
  have er : ridx_main_v6 (ix2 e (col h d)) k = ix2 k (col h d) := funext fun a => by
    match a with | ⟨0, _⟩ => rfl | ⟨1, _⟩ => rfl
  rw [el, er]

/-! ### The three gathers -/

/-- K's rows at the sources, at (e, h, d). -/
private theorem keyRows_apply (x0 : FVec Ideal S10000x128 .f32) (x2 : IVec S640000 32) (x5 : FVec Ideal S128x128 .f32)
    (e : Fin 640000) (h : Fin 8) (d : Fin 16) (hw : 0 ≤ (x2 (ix1 e)).toInt) :
    val_main_v14 (F := Ideal) x0 x2 x5 (ix3 e h d) = keyRows x0 x2 x5 (ix2 e (col h d)) := by
  unfold val_main_v14
  refine (Cert.LibGatherRows3.gather_rows3_apply (N := 10000) (H := 8) (D := 16) (R := 640000) (by decide)
    gather_S10000x8x16_S640000x1_S640000x8x16_12_0_n_n_0_1_1816.wf _ _ e h d).trans ?_
  have hrow : ∀ p, (⟨min (val_main_v13 (F := Ideal) x2 (ix2 e (0 : Fin 1))).toInt.toNat (10000 - 1), p⟩ : Fin 10000)
      = nodeRow (x2 (ix1 e)) := fun p => Fin.ext (by
    show min (val_main_v13 (F := Ideal) x2 (ix2 e (0 : Fin 1))).toInt.toNat (10000 - 1) = min (x2 (ix1 e)).toInt.toNat 9999
    rw [start_src x2 e hw])
  rw [hrow]
  exact keyTable_apply x0 x5 (nodeRow (x2 (ix1 e))) h d

/-- Q's rows at the destinations, at (e, h, d). -/
private theorem queryRows_apply (x0 : FVec Ideal S10000x128 .f32) (x3 : IVec S640000 32) (x4 : FVec Ideal S128x128 .f32)
    (e : Fin 640000) (h : Fin 8) (d : Fin 16) (hw : 0 ≤ (x3 (ix1 e)).toInt) :
    val_main_v21 (F := Ideal) x0 x3 x4 (ix3 e h d) = queryRows x0 x3 x4 (ix2 e (col h d)) := by
  unfold val_main_v21
  refine (Cert.LibGatherRows3.gather_rows3_apply (N := 10000) (H := 8) (D := 16) (R := 640000) (by decide)
    gather_S10000x8x16_S640000x1_S640000x8x16_12_0_n_n_0_1_1816.wf _ _ e h d).trans ?_
  have hrow : ∀ p, (⟨min (val_main_v20 (F := Ideal) x3 (ix2 e (0 : Fin 1))).toInt.toNat (10000 - 1), p⟩ : Fin 10000)
      = nodeRow (x3 (ix1 e)) := fun p => Fin.ext (by
    show min (val_main_v20 (F := Ideal) x3 (ix2 e (0 : Fin 1))).toInt.toNat (10000 - 1) = min (x3 (ix1 e)).toInt.toNat 9999
    rw [start_dst x3 e hw])
  rw [hrow]
  exact queryTable_apply x0 x4 (nodeRow (x3 (ix1 e))) h d

/-- V's rows at the sources, at (e, h, d). -/
private theorem valueRows_apply (x0 : FVec Ideal S10000x128 .f32) (x2 : IVec S640000 32) (x6 : FVec Ideal S128x128 .f32)
    (e : Fin 640000) (h : Fin 8) (d : Fin 16) (hw : 0 ≤ (x2 (ix1 e)).toInt) :
    val_main_v37 (F := Ideal) x0 x2 x6 (ix3 e h d) = valueRows x0 x2 x6 (ix2 e (col h d)) := by
  unfold val_main_v37
  refine (Cert.LibGatherRows3.gather_rows3_apply (N := 10000) (H := 8) (D := 16) (R := 640000) (by decide)
    gather_S10000x8x16_S640000x1_S640000x8x16_12_0_n_n_0_1_1816.wf _ _ e h d).trans ?_
  have hrow : ∀ p, (⟨min (val_main_v36 (F := Ideal) x2 (ix2 e (0 : Fin 1))).toInt.toNat (10000 - 1), p⟩ : Fin 10000)
      = nodeRow (x2 (ix1 e)) := fun p => Fin.ext (by
    show min (val_main_v36 (F := Ideal) x2 (ix2 e (0 : Fin 1))).toInt.toNat (10000 - 1) = min (x2 (ix1 e)).toInt.toNat 9999
    rw [start_src' x2 e hw])
  rw [hrow]
  exact valueTable_apply x0 x6 (nodeRow (x2 (ix1 e))) h d

variable (x0 : FVec Ideal S10000x128 .f32) (x1 : FVec Ideal S640000x128 .f32) (x2 x3 : IVec S640000 32)
  (x4 x5 x6 x7 : FVec Ideal S128x128 .f32)

/-- The reference's score array is the specification's. -/
theorem scores_eq (hs : ∀ e : Fin 640000, 0 ≤ (x2 (ix1 e)).toInt ∧ (x2 (ix1 e)).toInt < 10000)
    (hd : ∀ e : Fin 640000, 0 ≤ (x3 (ix1 e)).toInt ∧ (x3 (ix1 e)).toInt < 10000) :
    val_main_v26 (F := Ideal) x0 x1 x2 x3 x4 x5 x7 = scoreArr x0 x1 x2 x3 x4 x5 x7 := by
  funext i
  obtain ⟨e, h, d, rfl⟩ : ∃ e h d, i = ix3 e h d := ⟨i 0, i 1, i 2, eq_ix3 i⟩
  -- the stages from the product with the edge projection down to the two gathered rows
  rw [val_main_v26_apply, val_main_v25_apply, val_main_call0_v4_apply, val_main_call0_v3_apply, val_main_cst_4_apply,
    val_main_call0_v2_apply, val_main_call0_v1_apply, val_main_call0_v0_apply, val_main_cst_3_apply,
    val_main_v24_apply, val_main_v22_apply, val_main_v23_apply, val_main_cst_apply,
    keyRows_apply x0 x2 x5 e h d (hs e).1, queryRows_apply x0 x3 x4 e h d (hd e).1, edgeProj_apply x1 x7 e h d]
  simp only [Ideal.mulf_def, Ideal.minimumf_def, Ideal.maximumf_def, Ideal.ofBits_def]
  rfl

/-- The reference's head weights are the specification's. -/
theorem headWeights_eq (hs : ∀ e : Fin 640000, 0 ≤ (x2 (ix1 e)).toInt ∧ (x2 (ix1 e)).toInt < 10000)
    (hd : ∀ e : Fin 640000, 0 ≤ (x3 (ix1 e)).toInt ∧ (x3 (ix1 e)).toInt < 10000) :
    val_main_v30 (F := Ideal) x0 x1 x2 x3 x4 x5 x7 = headWeightArr x0 x1 x2 x3 x4 x5 x7 := by
  have hS := scores_eq x0 x1 x2 x3 x4 x5 x7 hs hd
  funext i
  obtain ⟨e, h, z, rfl⟩ : ∃ e h z, i = ix3 e h z := ⟨i 0, i 1, i 2, eq_ix3 i⟩
  -- exp of the clipped sum over the head's 16 lanes of the scores
  rw [val_main_v30_apply, val_main_v29_apply, val_main_call1_v4_apply, val_main_call1_v3_apply, val_main_cst_7_apply,
    val_main_call1_v2_apply, val_main_call1_v1_apply, val_main_call1_v0_apply, val_main_cst_6_apply,
    val_main_v28_apply, val_main_v27_apply, val_main_cst_5_apply, hS]
  simp only [Ideal.hostUnary_exp_def, Ideal.minimumf_def, Ideal.maximumf_def, Ideal.ofBits_def, Ideal.ofBits_zero_f32,
    zero_add]
  rfl

/-- The reference's weighted values are the specification's. -/
theorem weighted_eq (hs : ∀ e : Fin 640000, 0 ≤ (x2 (ix1 e)).toInt ∧ (x2 (ix1 e)).toInt < 10000)
    (hd : ∀ e : Fin 640000, 0 ≤ (x3 (ix1 e)).toInt ∧ (x3 (ix1 e)).toInt < 10000) :
    val_main_v39 (F := Ideal) x0 x1 x2 x3 x4 x5 x6 x7 = weightedArr x0 x1 x2 x3 x4 x5 x6 x7 := by
  have hW := headWeights_eq x0 x1 x2 x3 x4 x5 x7 hs hd
  funext i
  obtain ⟨e, h, d, rfl⟩ : ∃ e h d, i = ix3 e h d := ⟨i 0, i 1, i 2, eq_ix3 i⟩
  -- V's row at the source times the weight of the column's head
  rw [val_main_v39_apply, val_main_v38_apply, hW, valueRows_apply x0 x2 x6 e h d (hs e).1]
  simp only [Ideal.mulf_def]
  unfold weightedArr weightedOf headWeightArr
  show valueRows x0 x2 x6 (ix2 e (col h d)) * headWeightOf x1 (keyRows x0 x2 x5) (queryRows x0 x3 x4) x7 e h
    = valueRows x0 x2 x6 (ix2 e (col h d))
      * headWeightOf x1 (keyRows x0 x2 x5) (queryRows x0 x3 x4) x7 e (headOf (col h d))
  rw [headOf_col]

end Cert.ReferenceIdeal.RefValue

end
-- ==== Proof.RefResult.lean ====
/-
  The reference's node result is the same aggregation as the kernel program's: the sum of the weighted values into
  the destination nodes over the sum of the head weights plus the constant, the same operations on both sides.
-/
import proofs.«411189_j26482768347806_1_alg».proof.Proof.RefValue
import proofs.«411189_j26482768347806_1_alg».proof.Proof.HostTail

set_option maxRecDepth 16384

noncomputable section

namespace Cert.ReferenceIdeal.RefValue

open Cert.ReferenceIdeal Cert.ReferenceIdeal.Gen Cert.ReferenceIdeal.Read Cert.EdgeAttn
open Idealize.ShloMosaic Idealize.ShloMosaic.TcCoe Idealize.SL.Sem Idealize.ShloMosaic.ValueIdx

variable (x0 : FVec Ideal S10000x128 .f32) (x1 : FVec Ideal S640000x128 .f32) (x2 x3 : IVec S640000 32)
  (x4 x5 x6 x7 : FVec Ideal S128x128 .f32)

/-- The reference's last stages are the aggregation of its weighted values and head weights. -/
theorem nodes_stage :
    val_main_v49 (F := Ideal) x0 x1 x2 x3 x4 x5 x6 x7
      = Cert.KernelIdeal.HostValue.aggregate (F := Ideal) x3 (val_main_v39 (F := Ideal) x0 x1 x2 x3 x4 x5 x6 x7)
          (val_main_v30 (F := Ideal) x0 x1 x2 x3 x4 x5 x7) := by
  unfold val_main_v49 val_main_v48 val_main_v47 val_main_v46 val_main_cst_12 val_main_v45 val_main_v44 val_main_v43
    val_main_cst_11 val_main_v42 val_main_v41 val_main_v40 val_main_cst_10 Cert.KernelIdeal.HostValue.aggregate
  rfl

/-- The reference's node result is the aggregation of the specification's arrays. -/
theorem nodes_eq (hs : ∀ e : Fin 640000, 0 ≤ (x2 (ix1 e)).toInt ∧ (x2 (ix1 e)).toInt < 10000)
    (hd : ∀ e : Fin 640000, 0 ≤ (x3 (ix1 e)).toInt ∧ (x3 (ix1 e)).toInt < 10000) :
    val_main_v49 (F := Ideal) x0 x1 x2 x3 x4 x5 x6 x7
      = Cert.KernelIdeal.HostValue.aggregate (F := Ideal) x3 (weightedArr x0 x1 x2 x3 x4 x5 x6 x7)
          (headWeightArr x0 x1 x2 x3 x4 x5 x7) := by
  rw [nodes_stage, weighted_eq x0 x1 x2 x3 x4 x5 x6 x7 hs hd, headWeights_eq x0 x1 x2 x3 x4 x5 x7 hs hd]

end Cert.ReferenceIdeal.RefValue

end
-- ==== Proof.IndexRange.lean ====
/-
  What the precondition says of the two node-number arrays: every source and every destination is a row of the node
  table, 0 ≤ number < 10000.
-/
import proofs.«411189_j26482768347806_1_alg».proof.Pre_finite_inputs
import Idealize.ShloMosaic.Lib.ValueIdx
import Idealize.ShloMosaic.Lib.ReduceAll
import Idealize.ShloMosaic.Lib.StableHlo.Predicate

noncomputable section

namespace Cert.IndexRange

open Idealize.ShloMosaic Idealize.ShloMosaic.ValueIdx Cert.Pre_finite_inputs

variable {F : FTy → Type} [FloatOps F] [Cert.Pre_finite_inputs.Facts]

/-- One "all numbers are rows" conjunct read back: if the conjunction over all positions of
    (0 ≤ a) and (a < 10000), both compared signed, is 1, every entry of a lies in [0, 10000). -/
theorem range_of_all (a : IVec S640000 32) (init : IVec S_ 1)
    (hb : S_.BroadcastsInDim S640000 (![] : Fin 0 → Fin S640000.rank)) (hr : S640000.ReducesTo [0] S_)
    (h0 : 0 < S_.numel) (j : S_.Idx)
    (h : Host.reduce IntOp.andi
          (andi (cmpi .sge a (broadcastInDim S640000 ![] hb (constantI S_ 32 0#32)))
                (cmpi .slt a (broadcastInDim S640000 ![] hb (constantI S_ 32 10000#32))))
          init hr h0 j = 1#1)
    (e : Fin 640000) : 0 ≤ (a (ix1 e)).toInt ∧ (a (ix1 e)).toInt < 10000 := by
  -- the result shape of a reduction over every axis has one index
  haveI : Subsingleton S_.Idx := ⟨fun a b => funext fun d => d.elim0⟩
  have hall := Host.reduce_andi_all _ init hr h0 j h (ix1 e)
  have hand : IntOp.andi (IntOp.cmpi .sge (a (ix1 e)) 0#32) (IntOp.cmpi .slt (a (ix1 e)) 10000#32) = 1#1 := hall
  obtain ⟨h1, h2⟩ := IntOp.andi_eq_one.1 hand
  have h1' := IntOp.cmpi_sge.1 h1
  have h2' := IntOp.cmpi_slt.1 h2
  have z0 : (0#32 : BitVec 32).toInt = 0 := by decide
  have z1 : (10000#32 : BitVec 32).toInt = 10000 := by decide
  rw [z0] at h1'
  rw [z1] at h2'
  exact ⟨h1', h2'⟩

/-- Under the precondition both node-number arrays hold rows of the node table. -/
theorem node_numbers_in_range (a0 : FVec F S10000x128 .f32) (a1 : FVec F S640000x128 .f32) (a2 a3 : IVec S640000 32)
    (a4 a5 a6 a7 : FVec F S128x128 .f32)
    (h : Cert.Pre_finite_inputs.fn (F := F) a0 a1 a2 a3 a4 a5 a6 a7 = fun _ => 1#1) :
    (∀ e : Fin 640000, 0 ≤ (a2 (ix1 e)).toInt ∧ (a2 (ix1 e)).toInt < 10000)
      ∧ (∀ e : Fin 640000, 0 ≤ (a3 (ix1 e)).toInt ∧ (a3 (ix1 e)).toInt < 10000) := by
  have h' := congrFun h ix0
  dsimp only [fn, fn_part1, fn_part2] at h'
  -- the result is ((six float conjuncts) ∧ all-sources) ∧ all-destinations, at the one index
  obtain ⟨h35, h41⟩ := IntOp.andi_eq_one.1 h'
  obtain ⟨_, h34⟩ := IntOp.andi_eq_one.1 h35
  exact ⟨fun e => range_of_all a2 _ _ _ _ _ h34 e, fun e => range_of_all a3 _ _ _ _ _ h41 e⟩

end Cert.IndexRange

end
-- ==== Proof.lean ====
/-
  An attention layer over the edges of a graph: per edge, the product of the key of its source and the query of its
  destination, scaled and clamped, times a projection of the edge's own features; per edge and head, the exponential
  of the clamped sum of the head's 16 scores; per node, the sum over its incoming edges of the source's value times
  the head's weight, divided by the sum of the weights plus a small constant.

  The kernel program computes the three node projections in one region (5 blocks of 2000 rows), gathers their rows at
  the sources and destinations on the host, computes scores, head weights and weighted values in a second region
  (160 blocks of 4000 edges, all 128 columns at once, the 8 heads as column bands of 16), and aggregates on the host.
  The reference does the same on [.., 8, 16] arrays. On the extended reals both are one function of the arguments
  (Spec.lean): a matrix product is the same sum over 128 terms on both sides, column (h, d) of the flat layout is
  entry (h, d) of the other, a head's sum runs over the same 16 scores, and the aggregation is the same operations
  applied to equal arrays. The kernel program's gather masks a node number outside the table to a fill word where
  the reference's clamps it to the last row; the precondition keeps every node number a row of the table, where the
  two gathers agree. No finiteness is used.
-/
import proofs.«411189_j26482768347806_1_alg».proof.Defs
import proofs.«411189_j26482768347806_1_alg».proof.Proof.Gen.Kernel
import proofs.«411189_j26482768347806_1_alg».proof.Proof.Gen.Kernel.Skeleton
import proofs.«411189_j26482768347806_1_alg».proof.Proof.Gen.Kernel.Launch
import proofs.«411189_j26482768347806_1_alg».proof.Proof.Gen.Kernel.Points
import proofs.«411189_j26482768347806_1_alg».proof.Proof.Gen.Kernel.Frame
import proofs.«411189_j26482768347806_1_alg».proof.Proof.Gen.KernelIdeal
import proofs.«411189_j26482768347806_1_alg».proof.Proof.Gen.KernelIdeal.Skeleton
import proofs.«411189_j26482768347806_1_alg».proof.Proof.Gen.KernelIdeal.Launch
import proofs.«411189_j26482768347806_1_alg».proof.Proof.Gen.KernelIdeal.Points
import proofs.«411189_j26482768347806_1_alg».proof.Proof.Gen.KernelIdeal.Frame
import proofs.«411189_j26482768347806_1_alg».proof.Proof.Gen.ReferenceIdeal
import proofs.«411189_j26482768347806_1_alg».proof.Proof.Gen.Pre_finite_inputs
import proofs.«411189_j26482768347806_1_alg».proof.Proof.Gen.ReferenceIdeal.Run
import proofs.«411189_j26482768347806_1_alg».proof.Proof.Gen.ReferenceIdeal.Read
import proofs.«411189_j26482768347806_1_alg».proof.Proof.KernelRun
import proofs.«411189_j26482768347806_1_alg».proof.Proof.KernelValue
import proofs.«411189_j26482768347806_1_alg».proof.Proof.RefResult
import proofs.«411189_j26482768347806_1_alg».proof.Proof.IndexRange
import Idealize.ShloMosaic.Adequacy
import Idealize.ShloMosaic.Init

set_option maxRecDepth 16384

noncomputable section

namespace Cert.Proof

open Idealize.ShloMosaic Idealize.SL.Sem Idealize.ShloMosaic.ValueIdx Cert.EdgeAttn
open Cert.KernelIdeal.KernelValue

/-- The kernel program as printed runs and keeps its arguments. -/
theorem frame_kernel : Cert.frame_Kernel := fun m ρ _ => Cert.Kernel.Gen.frame m ρ

/-- The kernel program read on the extended reals runs and keeps its arguments. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, with every node number a row of the node table, both programs end
    with the specification's score array and the aggregation of its weighted values and head weights. -/
theorem algebraic : Cert.algebraic_KernelIdeal_ReferenceIdeal := by
  intro m ρ m' ρ' hpre hagree
  have hr : ∀ c, InRange m c := fun c => by
    unfold InRange
    exact Cert.IndexRange.node_numbers_in_range _ _ _ _ _ _ _ _ (hpre c)
  refine ⟨fun c => Cert.KernelIdeal.HostValue.aggregate (F := Ideal) (destinations m c)
      (weightedArr (nodeFeats m c) (edgeFeats m c) (sources m c) (destinations m c) (wQ m c) (wK m c) (wV m c) (wE m c))
      (headWeightArr (nodeFeats m c) (edgeFeats m c) (sources m c) (destinations m c) (wQ m c) (wK m c) (wE m c)),
    fun c => scoreArr (nodeFeats m c) (edgeFeats m c) (sources m c) (destinations m c) (wQ m c) (wK m c) (wE m c), ?_, ?_⟩
  · exact (θ_run Cert.KernelIdeal.defs _ _).mono
      (fun r h c => ⟨(h c).1.trans (nodes_result m ρ c (hr c)), (h c).2.1.trans (scores_result m ρ c (hr c)), (h c).2.2⟩)
      (Cert.KernelIdeal.Named.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7⟩ := hagree c
      rw [Cert.ReferenceIdeal.Read.val_main_v49_eq, e0, e1, e2, e3, e4, e5, e6, e7]
      exact Cert.ReferenceIdeal.RefValue.nodes_eq _ _ _ _ _ _ _ _ (hr c).1 (hr c).2
    · obtain ⟨e0, e1, e2, e3, e4, e5, e6, e7⟩ := hagree c
      rw [Cert.ReferenceIdeal.Read.val_main_v26_eq, e0, e1, e2, e3, e4, e5, e7]
      exact Cert.ReferenceIdeal.RefValue.scores_eq _ _ _ _ _ _ _ (hr c).1 (hr c).2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
